-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64x40 .f32) (main_arg6 : FVec F S40 .f32) (main_arg7 : FVec F S64x40 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64x40 .f32 := Host.absf main_arg5
  let main_cst_6 : FVec F S_ .f32 := constant S_ .f32 0x7F800000#32
  let main_v20 : FVec F S64x40 .f32 := broadcastInDim S64x40 ![] bcast_S_S64x40 main_cst_6
  let main_v21 : IVec S64x40 1 := cmpf .olt main_v19 main_v20
  let main_c_7 : IVec S_ 1 := constantI S_ 1 1#1
  let main_v22 : IVec S_ 1 := (fun x v => Host.reduce IntOp.andi x v reducesTo_S64x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S64x40 .f32 := Host.absf main_arg7
  let main_cst_10 : FVec F S_ .f32 := constant S_ .f32 0x7F800000#32
  let main_v30 : FVec F S64x40 .f32 := broadcastInDim S64x40 ![] bcast_S_S64x40 main_cst_10
  let main_v31 : IVec S64x40 1 := cmpf .olt main_v29 main_v30
  let main_c_11 : IVec S_ 1 := constantI S_ 1 1#1
  let main_v32 : IVec S_ 1 := (fun x v => Host.reduce IntOp.andi x v reducesTo_S64x40_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S128x64 .f32) (main_arg5 : FVec F S64x40 .f32) (main_arg6 : FVec F S40 .f32) (main_arg7 : FVec F S64x40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x64 : Shape := ⟨2, ![1, 64]⟩
abbrev S100000x64 : Shape := ⟨2, ![100000, 64]⟩
abbrev S5000x128 : Shape := ⟨2, ![5000, 128]⟩
abbrev S5000x64 : Shape := ⟨2, ![5000, 64]⟩
abbrev S1600000x64 : Shape := ⟨2, ![1600000, 64]⟩
abbrev S1x40 : Shape := ⟨2, ![1, 40]⟩
abbrev S100000x40 : Shape := ⟨2, ![100000, 40]⟩
abbrev S5000x40 : Shape := ⟨2, ![5000, 40]⟩
abbrev S5000 : Shape := ⟨1, ![5000]⟩
abbrev S5000x1 : Shape := ⟨2, ![5000, 1]⟩

abbrev nBuf : Space → Nat
  | .hbm => 59
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64x40, .f32⟩
  | .hbm, ⟨6, _⟩ => ⟨S40, .f32⟩
  | .hbm, ⟨7, _⟩ => ⟨S64x40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x64, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S100000x64, .f32⟩
  | .hbm, ⟨56, _⟩ => ⟨S100000x64, .f32⟩
  | .hbm, ⟨57, _⟩ => ⟨S1x40, .f32⟩
  | .hbm, ⟨58, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S1x64, .f32⟩
  | .local _ .vmem, ⟨6, _⟩ => ⟨S128x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x40, .f32⟩
  | .local _ .vmem, ⟨14, _⟩ => ⟨S1x40, .f32⟩
  | .local _ .vmem, ⟨15, _⟩ => ⟨S64x40, .f32⟩
  | .local _ .vmem, ⟨16, _⟩ => ⟨S5000x40, .f32⟩
  | .local _ .vmem, ⟨17, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S40_S1x40 : S40.ShapeCasts S1x40
  shapeCasts_S5000x64_S5000x64 : S5000x64.ShapeCasts S5000x64
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x40.size a ≤ S64x40.size a
  hwx1_2 : ∀ i : grid1.Coords, EltTy.bits .f32 = 32 ∨ (Rect.block (s := S64x40) S64x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x40.size a ≤ S1x40.size a
  hwx1_3 : ∀ i : grid1.Coords, EltTy.bits .f32 = 32 ∨ (Rect.block (s := S1x40) S1x40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x40.size a ≤ S64x40.size a
  hwx1_4 : ∀ i : grid1.Coords, EltTy.bits .f32 = 32 ∨ (Rect.block (s := S64x40) S64x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x40.size a ≤ S100000x40.size a
  hwx1_5 : ∀ i : grid1.Coords, EltTy.bits .f32 = 32 ∨ (Rect.block (s := S100000x40) S5000x40.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩
abbrev S100000x40 : Shape := ⟨2, ![100000, 40]⟩
abbrev S1x40 : Shape := ⟨2, ![1, 40]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64x40, .f32⟩
  | .hbm, ⟨6, _⟩ => ⟨S40, .f32⟩
  | .hbm, ⟨7, _⟩ => ⟨S64x40, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x64, .f32⟩
  | .hbm, ⟨70, _⟩ => ⟨S100000x64, .f32⟩
  | .hbm, ⟨71, _⟩ => ⟨S100000x40, .f32⟩
  | .hbm, ⟨72, _⟩ => ⟨S1x40, .f32⟩
  | .hbm, ⟨73, _⟩ => ⟨S100000x40, .f32⟩
  | .hbm, ⟨74, _⟩ => ⟨S100000x40, .f32⟩
  | .hbm, ⟨75, _⟩ => ⟨S100000x40, .f32⟩
  | .hbm, ⟨76, _⟩ => ⟨S100000x40, .f32⟩
  | .hbm, ⟨77, _⟩ => ⟨S_, .f32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .f32⟩
  | .hbm, ⟨82, _⟩ => ⟨S100000x1, .f32⟩
  | .hbm, ⟨83, _⟩ => ⟨S100000x40, .f32⟩
  | .hbm, ⟨84, _⟩ => ⟨S100000x40, .f32⟩
  | .hbm, ⟨85, _⟩ => ⟨S100000x40, .f32⟩
  | .hbm, ⟨86, _⟩ => ⟨S_, .f32⟩
  | .hbm, ⟨87, _⟩ => ⟨S100000, .f32⟩
  | .hbm, ⟨88, _⟩ => ⟨S100000x1, .f32⟩
  | .hbm, ⟨89, _⟩ => ⟨S100000x1, .f32⟩
  | .hbm, ⟨90, _⟩ => ⟨S100000x40, .f32⟩
  | .hbm, ⟨91, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call1_cst : Ref sig .tc := ⟨.hbm, 77, rfl⟩
abbrev main_call1_v0 : Ref sig .tc := ⟨.hbm, 78, rfl⟩
abbrev main_call1_cst_0 : Ref sig .tc := ⟨.hbm, 79, rfl⟩
abbrev main_call1_v1 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_v5 : Ref sig .tc := ⟨.hbm, 84, rfl⟩
abbrev main_call1_v6 : Ref sig .tc := ⟨.hbm, 85, rfl⟩
abbrev main_call1_cst_1 : Ref sig .tc := ⟨.hbm, 86, rfl⟩
abbrev main_call1_v7 : Ref sig .tc := ⟨.hbm, 87, rfl⟩
abbrev main_call1_v8 : Ref sig .tc := ⟨.hbm, 88, rfl⟩
abbrev main_call1_v9 : Ref sig .tc := ⟨.hbm, 89, rfl⟩
abbrev main_call1_v10 : Ref sig .tc := ⟨.hbm, 90, rfl⟩
abbrev main_v55 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x40_S100000x40_1_0_0_1_n_n_wf : DotDims.WF S100000x64 S64x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.KFold.lean ====
import proofs.«120514_j71683004171208_1_alg».proof.Proof.Gen.KernelIdeal.Frame

/-! # The host stretches of the kernel program, read

The kernel program runs two stretches of host operations, one before each kernel region. Both compute, from the
edge list `ei` (row 0 the sources, row 1 the destinations), the mean over each node's in-neighbours of a feature
matrix: gather the source rows, add them up at the destinations, divide by the in-degree clamped below at 1.
The shared terms are named once here, each spelled with the operators of the printed program, and each buffer the
kernel regions read is shown to hold the named term over the launch contents. -/

set_option maxRecDepth 16384

noncomputable section

namespace Cert.KernelIdeal.Hand

open Cert.KernelIdeal Cert.KernelIdeal.Gen
open Idealize.ShloMosaic Idealize.ShloMosaic.TcCoe

variable {F : FTy → Type} [FloatOps F]

/-! ## The shared terms -/

/-- The source index of every edge as a column: row 0 of the edge list, a negative index wrapped once by the
    number of nodes (%0, %1, %c, %13 .. %18; the same chain recurs as %27 .. %32). -/
def srcIdx (ei : (⟨S2x1600000, .i32⟩ : BufTy).Contents (Elt F)) : (⟨S1600000x1, .i32⟩ : BufTy).Contents (Elt F) :=
  broadcastInDim S1600000x1 ![0] bcast_S1600000_S1600000x1_0
    (select
      (cmpi .slt
        (shapeCast S1600000 (extractStridedSlice S1x1600000 ![0, 0] ei slices_S2x1600000_S1x1600000_0_0) shapeCasts_S1x1600000_S1600000)
        (broadcastInDim S1600000 ![] bcast_S_S1600000 (constantI S_ 32 0#32)))
      (addi
        (shapeCast S1600000 (extractStridedSlice S1x1600000 ![0, 0] ei slices_S2x1600000_S1x1600000_0_0) shapeCasts_S1x1600000_S1600000)
        (broadcastInDim S1600000 ![] bcast_S_S1600000 (constantI S_ 32 100000#32)))
      (shapeCast S1600000 (extractStridedSlice S1x1600000 ![0, 0] ei slices_S2x1600000_S1x1600000_0_0) shapeCasts_S1x1600000_S1600000))

/-- The destination index of every edge as a column: row 1 of the edge list (%2, %3, %6 = %21 = %35). -/
def dstIdx (ei : (⟨S2x1600000, .i32⟩ : BufTy).Contents (Elt F)) : (⟨S1600000x1, .i32⟩ : BufTy).Contents (Elt F) :=
  broadcastInDim S1600000x1 ![0] bcast_S1600000_S1600000x1_0
    (shapeCast S1600000 (extractStridedSlice S1x1600000 ![1, 0] ei slices_S2x1600000_S1x1600000_1_0) shapeCasts_S1x1600000_S1600000)

/-- The in-degree of every node, clamped below at 1: a 1 added at each edge's destination, then the maximum with 1
    (%cst, %4, %cst_0, %5, %7, %cst_1, %8, %9). -/
def deg (ei : (⟨S2x1600000, .i32⟩ : BufTy).Contents (Elt F)) : FVec F S100000 .f32 :=
  maximumf
    (Host.scatterAdd scatter_S100000_S1600000x1_S1600000_n_0_0_1
      (broadcastInDim S100000 ![] bcast_S_S100000 (constant (F := F) S_ .f32 0x00000000#32))
      (dstIdx ei)
      (broadcastInDim S1600000 ![] bcast_S_S1600000 (constant (F := F) S_ .f32 0x3F800000#32)))
    (broadcastInDim S100000 ![] bcast_S_S100000 (constant (F := F) S_ .f32 0x3F800000#32))

/-- One over the clamped in-degree, as a column (%cst_2, %10, %11, %12). -/
def degInv (ei : (⟨S2x1600000, .i32⟩ : BufTy).Contents (Elt F)) : FVec F S100000x1 .f32 :=
  broadcastInDim S100000x1 ![0] bcast_S100000_S100000x1_0
    (Host.divf (broadcastInDim S100000 ![] bcast_S_S100000 (constant (F := F) S_ .f32 0x3F800000#32)) (deg ei))

/-- The sum over each node's in-edges of the source's feature row, at 128 columns (%19, %20, %22). -/
def agg128 (ei : (⟨S2x1600000, .i32⟩ : BufTy).Contents (Elt F)) (feat : FVec F S100000x128 .f32) : FVec F S100000x128 .f32 :=
  Host.scatterAdd scatter_S100000x128_S1600000x1_S1600000x128_1_0_0_1
    (broadcastInDim S100000x128 ![] bcast_S_S100000x128 (constant (F := F) S_ .f32 0x00000000#32))
    (dstIdx ei)
    (Host.gather gather_S100000x128_S1600000x1_S1600000x128_1_0_n_n_0_1_1128 feat (srcIdx ei))

/-- The same at 64 columns (%33, %34, %36). -/
def agg64 (ei : (⟨S2x1600000, .i32⟩ : BufTy).Contents (Elt F)) (feat : FVec F S100000x64 .f32) : FVec F S100000x64 .f32 :=
  Host.scatterAdd scatter_S100000x64_S1600000x1_S1600000x64_1_0_0_1
    (broadcastInDim S100000x64 ![] bcast_S_S100000x64 (constant (F := F) S_ .f32 0x00000000#32))
    (dstIdx ei)
    (Host.gather gather_S100000x64_S1600000x1_S1600000x64_1_0_n_n_0_1_164 feat (srcIdx ei))

/-- The neighbour mean at 128 columns: the sum times one over the clamped in-degree (%23, %24). -/
def mean128 (ei : (⟨S2x1600000, .i32⟩ : BufTy).Contents (Elt F)) (feat : FVec F S100000x128 .f32) : FVec F S100000x128 .f32 :=
  mulf (agg128 ei feat) (broadcastInDim S100000x128 ![0, 1] bcast_S100000x1_S100000x128_0_1 (degInv ei))

/-- The neighbour mean at 64 columns (%37, %38). -/
def mean64 (ei : (⟨S2x1600000, .i32⟩ : BufTy).Contents (Elt F)) (feat : FVec F S100000x64 .f32) : FVec F S100000x64 .f32 :=
  mulf (agg64 ei feat) (broadcastInDim S100000x64 ![0, 1] bcast_S100000x1_S100000x64_0_1 (degInv ei))

/-! ## The buffers at the regions' entries -/

variable (m : (ℓ : Loc nD τ sig) → Buf (Elt F) ℓ) (ρ : Dev nD → PrngReg) (c : Dev nD)

/-- The result array at the last boundary: what region 1's write-backs leave in its output window. -/
theorem W4_out : W4 m ρ c (Proc.devRef .tc main_v40) = (dat1 (V3 m ρ) c).arrAt 5 cfg1.N :=
  W4_arr m ρ c 5

/-! ### Region 0's entry: the launch contents through the first stretch -/

theorem V1_mean : V1 m ρ c main_v24
    = mean128 (m ((c.tc : Thread nD τ).loc main_arg1)) (m ((c.tc : Thread nD τ).loc main_arg0)) := by
  show StableHlo.after hostOps0 (W0 m ρ c) (Proc.devRef .tc main_v24) = _
  after_results_simp
  rfl

theorem V1_x : V1 m ρ c main_arg0 = m ((c.tc : Thread nD τ).loc main_arg0) := by
  show StableHlo.after hostOps0 (W0 m ρ c) (Proc.devRef .tc main_arg0) = _
  after_results

theorem V1_wl : V1 m ρ c main_arg2 = m ((c.tc : Thread nD τ).loc main_arg2) := by
  show StableHlo.after hostOps0 (W0 m ρ c) (Proc.devRef .tc main_arg2) = _
  after_results

theorem V1_wr : V1 m ρ c main_arg4 = m ((c.tc : Thread nD τ).loc main_arg4) := by
  show StableHlo.after hostOps0 (W0 m ρ c) (Proc.devRef .tc main_arg4) = _
  after_results

theorem V1_bias : V1 m ρ c main_v25
    = shapeCast S1x64 (m ((c.tc : Thread nD τ).loc main_arg3)) shapeCasts_S64_S1x64 := by
  show StableHlo.after hostOps0 (W0 m ρ c) (Proc.devRef .tc main_v25) = _
  after_results
  rfl

/-! ### Region 0's exit, read where the second stretch reads it

The second stretch reads the hidden layer `main_v26`, which region 0 wrote, and three buffers of the first stretch
that region 0 does not touch: the two rows of the edge list and the inverse degree column. -/

theorem W2_hid : W2 m ρ c (Proc.devRef .tc main_v26) = (dat0 (V1 m ρ) c).arrAt 5 cfg0.N :=
  W2_arr m ρ c 5

theorem W2_src : W2 m ρ c (Proc.devRef .tc main_v1)
    = shapeCast S1600000 (extractStridedSlice S1x1600000 ![0, 0] (m ((c.tc : Thread nD τ).loc main_arg1)) slices_S2x1600000_S1x1600000_0_0) shapeCasts_S1x1600000_S1600000 := by
  rw [W2_of_ne m ρ c main_v1 (by decide)]
  show StableHlo.after hostOps0 (W0 m ρ c) (Proc.devRef .tc main_v1) = _
  after_results_simp
  rfl

theorem W2_dst : W2 m ρ c (Proc.devRef .tc main_v3)
    = shapeCast S1600000 (extractStridedSlice S1x1600000 ![1, 0] (m ((c.tc : Thread nD τ).loc main_arg1)) slices_S2x1600000_S1x1600000_1_0) shapeCasts_S1x1600000_S1600000 := by
  rw [W2_of_ne m ρ c main_v3 (by decide)]
  show StableHlo.after hostOps0 (W0 m ρ c) (Proc.devRef .tc main_v3) = _
  after_results_simp
  rfl

theorem W2_degInv : W2 m ρ c (Proc.devRef .tc main_v12) = degInv (m ((c.tc : Thread nD τ).loc main_arg1)) := by
  rw [W2_of_ne m ρ c main_v12 (by decide)]
  show StableHlo.after hostOps0 (W0 m ρ c) (Proc.devRef .tc main_v12) = _
  after_results_simp
  rfl

/-- An argument that is no array of region 0 is at region 0's exit as launched. -/
theorem W2_arg5 : W2 m ρ c (Proc.devRef .tc main_arg5) = m ((c.tc : Thread nD τ).loc main_arg5) := by
  rw [W2_of_ne m ρ c main_arg5 (by decide)]
  show StableHlo.after hostOps0 (W0 m ρ c) (Proc.devRef .tc main_arg5) = _
  after_results
theorem W2_arg6 : W2 m ρ c (Proc.devRef .tc main_arg6) = m ((c.tc : Thread nD τ).loc main_arg6) := by
  rw [W2_of_ne m ρ c main_arg6 (by decide)]
  show StableHlo.after hostOps0 (W0 m ρ c) (Proc.devRef .tc main_arg6) = _
  after_results
theorem W2_arg7 : W2 m ρ c (Proc.devRef .tc main_arg7) = m ((c.tc : Thread nD τ).loc main_arg7) := by
  rw [W2_of_ne m ρ c main_arg7 (by decide)]
  show StableHlo.after hostOps0 (W0 m ρ c) (Proc.devRef .tc main_arg7) = _
  after_results

/-! ### Region 1's entry: region 0's exit through the second stretch -/

/-- The second stretch does not write the hidden layer: region 1 finds it as region 0 left it. -/
theorem V3_hid : V3 m ρ c main_v26 = (dat0 (V1 m ρ) c).arrAt 5 cfg0.N := by
  show StableHlo.after hostOps1 (W2 m ρ c) (Proc.devRef .tc main_v26) = _
  after_results
  exact W2_hid m ρ c

theorem V3_mean : V3 m ρ c main_v38
    = mean64 (m ((c.tc : Thread nD τ).loc main_arg1)) ((dat0 (V1 m ρ) c).arrAt 5 cfg0.N) := by
  show StableHlo.after hostOps1 (W2 m ρ c) (Proc.devRef .tc main_v38) = _
  after_results_simp
  rw [W2_src, W2_dst, W2_degInv, W2_hid]
  rfl

theorem V3_wl : V3 m ρ c main_arg5 = m ((c.tc : Thread nD τ).loc main_arg5) := by
  show StableHlo.after hostOps1 (W2 m ρ c) (Proc.devRef .tc main_arg5) = _
  after_results
  exact W2_arg5 m ρ c

theorem V3_wr : V3 m ρ c main_arg7 = m ((c.tc : Thread nD τ).loc main_arg7) := by
  show StableHlo.after hostOps1 (W2 m ρ c) (Proc.devRef .tc main_arg7) = _
  after_results
  exact W2_arg7 m ρ c

theorem V3_bias : V3 m ρ c main_v39
    = shapeCast S1x40 (m ((c.tc : Thread nD τ).loc main_arg6)) shapeCasts_S40_S1x40 := by
  show StableHlo.after hostOps1 (W2 m ρ c) (Proc.devRef .tc main_v39) = _
  after_results
  rw [W2_arg6]
  rfl

end Cert.KernelIdeal.Hand

end
-- ==== Proof.LibBlocks.lean ====
/-
  ROW BLOCKS OF A TWO-AXIS ARRAY, AND TWO BLOCK BODIES READ AT ONE ELEMENT.

  An array [N, b] is worked in blocks of n consecutive rows: block t holds rows n t … n t + n - 1, so row r lies in
  block r / n at local row r - n (r / n) (row_in_block). Two bodies of such a block, each set beside the whole-array
  operation it is a block of, at the extended reals:

  * bias and rectifier: element (p, q) of max(block + bias row, 0) is max(block (p, q) + bias (0, q), 0), and element
    (r, q) of max(array + bias row broadcast down the rows, 0) is max(array (r, q) + bias (0, q), 0): equal when block
    element (p, q) is array element (r, q) (biasRelu_apply);
  * matrix product: element (p, q) of a block [n, K] times a matrix [K, b], accumulated from zero, is the sum over k of
    block (p, k) matrix (k, q), and element (r, q) of the host's product of the array [N, K] with the matrix is the sum
    over k of array (r, k) matrix (k, q): equal when block row p is array row r (matmul_plain_apply,
    dotGeneral_plain_apply, matmul_eq_dotGeneral_apply). A change of float format on the way in is the identity here.

  Generic in the extents; a program's dimension numbers enter through an equation with the library's plain
  rows-by-columns record.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibBlocks

open Idealize.ShloMosaic Idealize.ShloMosaic.ValueIdx

/-! ## Rows in blocks -/

/-- Row r of nb blocks of bs rows each lies in block r / bs, between that block's first row and its last. -/
theorem row_in_block {nb bs r : Nat} (hbs : 0 < bs) (hr : r < nb * bs) :
    r / bs < nb ∧ r / bs * bs ≤ r ∧ r < r / bs * bs + bs :=
  ⟨Nat.div_lt_of_lt_mul (by rwa [Nat.mul_comm] at hr), Nat.div_mul_le_self r bs, Nat.lt_div_mul_add hbs⟩

/-- The zero offsets of a two-axis block, as the constant function. -/
theorem off2_zero : (![0, 0] : Fin 2 → Nat) = fun _ => 0 := funext fun a => by fin_cases a <;> rfl

/-! ## Bias and rectifier -/

/-- Element (p, q) of max(block + bias row, 0) against element (r, q) of max(array + bias row, 0), the bias row
    broadcast down the rows on both sides: equal when block element (p, q) is array element (r, q) and the two bias
    rows are the same. -/
theorem biasRelu_apply {n N b : Nat}
    (hc0 : (⟨2, ![n, b]⟩ : Shape).ShapeCasts ⟨2, ![n, b]⟩) (hc1 : (⟨2, ![1, b]⟩ : Shape).ShapeCasts ⟨2, ![1, b]⟩)
    (hb : (⟨2, ![1, b]⟩ : Shape).Broadcasts ⟨2, ![n, b]⟩)
    (hbd : (⟨2, ![1, b]⟩ : Shape).BroadcastsInDim ⟨2, ![N, b]⟩ ![0, 1])
    (hz : (⟨0, ![]⟩ : Shape).BroadcastsInDim ⟨2, ![N, b]⟩ ![])
    (x0 : FVec Ideal ⟨2, ![n, b]⟩ .f32) (x1 : FVec Ideal ⟨2, ![1, b]⟩ .f32)
    (a : FVec Ideal ⟨2, ![N, b]⟩ .f32) (b2 : FVec Ideal ⟨2, ![1, b]⟩ .f32)
    (p : Fin n) (r : Fin N) (q : Fin b) (h0 : x0 (ix2 p q) = a (ix2 r q)) (h1 : x1 = b2) :
    maximumf (addf (shapeCast ⟨2, ![n, b]⟩ x0 hc0) (broadcastTo ⟨2, ![n, b]⟩ (shapeCast ⟨2, ![1, b]⟩ x1 hc1) hb))
        (broadcast ⟨2, ![n, b]⟩ (Scalar.ofBits (F := Ideal) .f32 0x00000000#32)) (ix2 p q)
      = maximumf (addf a (broadcastInDim ⟨2, ![N, b]⟩ ![0, 1] hbd b2))
        (broadcastInDim ⟨2, ![N, b]⟩ ![] hz (constant (F := Ideal) ⟨0, ![]⟩ .f32 0x00000000#32)) (ix2 r q) := by
  subst h1
  rw [maximumf_apply, maximumf_apply, addf_apply, addf_apply, shapeCast_self, shapeCast_self,
    broadcastTo_apply x1 hb (ix2 p q) (ix2 (0 : Fin 1) q) (fun a => by
      match a with
      | ⟨0, _⟩ => rfl
      | ⟨1, _⟩ =>
        show q.val = if b = 1 then 0 else q.val
        have := q.isLt
        split_ifs <;> omega),
    broadcastInDim_apply ![0, 1] hbd x1 (ix2 r q) (ix2 (0 : Fin 1) q) (fun a => by
      match a with
      | ⟨0, _⟩ => rfl
      | ⟨1, _⟩ =>
        show q.val = if b = 1 then 0 else q.val
        have := q.isLt
        split_ifs <;> omega),
    broadcastInDim_apply ![] hz (constant (F := Ideal) ⟨0, ![]⟩ .f32 0x00000000#32) (ix2 r q) ix0 (fun a => a.elim0),
    h0]
  rfl

/-! ## The matrix product -/

section Plain

variable {M K N : Nat}

/-- In a rows-by-columns product the left operand is read at the result's row and the contraction position … -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ =>
    show ((DotDims.plain M K N).lhsIdx (ix2 p q) _ 0).val = p.val
    unfold DotDims.lhsIdx
    rw [dif_neg (show ¬(0 : Fin (⟨2, ![M, K]⟩ : Shape).rank) ∈ (DotDims.plain M K N).lhsBatch from List.not_mem_nil),
      dif_pos (show (0 : Fin (⟨2, ![M, K]⟩ : Shape).rank) ∈ (DotDims.plain M K N).lhsNonContracting from List.mem_singleton.mpr rfl)]
    rfl
  | ⟨1, _⟩ =>
    exact ((DotDims.plain M K N).lhsIdx_val_of_single (cl := 1) rfl (ix2 p q) _).trans hk

/-- … and the right operand at the contraction position and the result's column. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ =>
    exact ((DotDims.plain M K N).rhsIdx_val_of_single (cr := 0) rfl (ix2 p q) _).trans hk
  | ⟨1, _⟩ =>
    show ((DotDims.plain M K N).rhsIdx (ix2 p q) _ 1).val = q.val
    unfold DotDims.rhsIdx
    rw [dif_neg (show ¬(1 : Fin (⟨2, ![K, N]⟩ : Shape).rank) ∈ (DotDims.plain M K N).rhsBatch from List.not_mem_nil),
      dif_pos (show (1 : Fin (⟨2, ![K, N]⟩ : Shape).rank) ∈ (DotDims.plain M K N).rhsNonContracting from List.mem_singleton.mpr rfl)]
    rfl

/-- The matrix unit's product into a zero accumulator, at element (p, q): the sum over k of left (p, k) right (k, q). -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  subst hd
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product at element (p, q): the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  subst hd
  rw [Ideal.dotGeneral_apply, ← Equiv.sum_comp (contrEquiv1 (DotDims.plain M K N) K rfl rfl).symm]
  refine Finset.sum_congr rfl fun k _ => ?_
  rw [plain_lhsIdx, plain_rhsIdx]

end Plain

/-- Element (p, q) of a block [n, K] times a matrix [K, b] on the matrix unit, both narrowed on the way in and
    accumulated from zero, against element (r, q) of the host's product of an array [N, K] with a matrix: equal when
    block row p is array row r and the matrices are the same. -/
theorem matmul_eq_dotGeneral_apply {n N K b : Nat}
    (dk : DotDims ⟨2, ![n, K]⟩ ⟨2, ![K, b]⟩ ⟨2, ![n, b]⟩) (hdk : dk = DotDims.plain n K b)
    (dr : DotDims ⟨2, ![N, K]⟩ ⟨2, ![K, b]⟩ ⟨2, ![N, b]⟩) (hdr : dr = DotDims.plain N K b)
    (hc0 : (⟨2, ![n, K]⟩ : Shape).ShapeCasts ⟨2, ![n, K]⟩) (hc1 : (⟨2, ![K, b]⟩ : Shape).ShapeCasts ⟨2, ![K, b]⟩)
    (hlt : FTy.bf16.bits < FTy.f32.bits)
    (x0 : FVec Ideal ⟨2, ![n, K]⟩ .f32) (x1 : FVec Ideal ⟨2, ![K, b]⟩ .f32)
    (h : FVec Ideal ⟨2, ![N, K]⟩ .f32) (w : FVec Ideal ⟨2, ![K, b]⟩ .f32)
    (p : Fin n) (r : Fin N) (q : Fin b) (h0 : ∀ k : Fin K, x0 (ix2 p k) = h (ix2 r k)) (h1 : x1 = w) :
    matmul dk none (truncf .bf16 (shapeCast ⟨2, ![n, K]⟩ x0 hc0) hlt) (truncf .bf16 (shapeCast ⟨2, ![K, b]⟩ x1 hc1) hlt)
        (constant ⟨2, ![n, b]⟩ .f32 0x00000000#32) (ix2 p q)
      = Host.dotGeneral dr none h w (ix2 r q) := by
  subst h1
  rw [shapeCast_self, shapeCast_self]
  show FloatOps.matmul dk none _ _ _ _ = FloatOps.dotGeneral dr none .single h x1 (ix2 r q)
  rw [matmul_plain_apply dk hdk, dotGeneral_plain_apply dr hdr]
  refine Finset.sum_congr rfl fun k _ => ?_
  rw [truncf_apply, truncf_apply, h0 k]

end Cert.LibBlocks

end
-- ==== Proof.LibColumn.lean ====
/-
  A column kept beside a matrix. A vector of a entries reshaped to an a x 1 column holds entry p at (p, 0): the
  column's row-major position p * 1 + 0 is the vector's index p. An a x 1 column broadcast to a x b repeats each
  row's one entry along the row: entry (p, c) of the result is entry (p, 0) of the column, since the column's
  second axis has length one and its first axis is carried over unchanged.
-/
import Idealize.ShloMosaic.Lib.Pipeline.Value
import Idealize.ShloMosaic.Lib.ValueIdx

namespace Cert.Proof.Column

open Idealize.ShloMosaic Idealize.ShloMosaic.ValueIdx

variable {α : Type}

/-- A vector of `a` entries as an `a x 1` column reads, at `(p, u)`, entry `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `a x 1` column broadcast to `a x b` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Proof.Column
-- ==== Proof.LibLaneSum.lean ====
/-
  A lane sum over one axis, and the small layout changes around it, read at coordinates, at the ideal values.

  At the ideal values a float sum over one axis of an array is, at each index of the result, the plain sum of the
  entries along that axis (no order, no rounding).  Written with the result's index given by its coordinates: summing
  the last axis of `[A, B, C]` at `(a, b)` is `Σ_c v(a, b, c)`; summing the first at `(b, c)` is `Σ_a v(a, b, c)`; summing
  the second axis of `[A, B]` at `a` is `Σ_b v(a, b)`.  An array `[A, 1, B, C]` viewed as `[A, B, C]` has the same entries,
  and extracting position `[0, 0]` of a `[1, 1]` array reads its one entry.  All extents are arbitrary.
-/
import Idealize.ShloMosaic.PureOps.Ideal.Laws
import Idealize.ShloMosaic.Lib.Pipeline.Value
import Idealize.ShloMosaic.Lib.ValueIdx

noncomputable section

open scoped BigOperators

namespace Cert.LibLaneSum

open Idealize.ShloMosaic Idealize.ShloMosaic.ValueIdx

/-- The sum over the last axis of `[A, B, C]`, at `(a, b)`. -/
theorem sum_last3 {A B C : Nat} (v : FVec Ideal ⟨3, ![A, B, C]⟩ .f32) (acc : BitVec 32)
    (h : (⟨3, ![A, B, C]⟩ : Shape).Reduces [2] ⟨2, ![A, B]⟩) (hφ : FKind.Formats .f32)
    (hacc : acc = FKind.add.neutral .f32 hφ) (a : Fin A) (b : Fin B) :
    multiReduction .add [2] ⟨2, ![A, B]⟩ v acc h hφ hacc (ix2 a b) = ∑ c : Fin C, v (ix3 a b c) := by
  refine (Ideal.multiReduction_add_single v acc h hφ hacc (ix2 a b)).trans ?_
  exact Finset.sum_congr rfl fun k _ => congrArg v (funext fun d => Fin.ext (by
    match d with | ⟨0, _⟩ => rfl | ⟨1, _⟩ => rfl | ⟨2, _⟩ => rfl))

/-- The sum over the first axis of `[A, B, C]`, at `(b, c)`. -/
theorem sum_first3 {A B C : Nat} (v : FVec Ideal ⟨3, ![A, B, C]⟩ .f32) (acc : BitVec 32)
    (h : (⟨3, ![A, B, C]⟩ : Shape).Reduces [0] ⟨2, ![B, C]⟩) (hφ : FKind.Formats .f32)
    (hacc : acc = FKind.add.neutral .f32 hφ) (b : Fin B) (c : Fin C) :
    multiReduction .add [0] ⟨2, ![B, C]⟩ v acc h hφ hacc (ix2 b c) = ∑ a : Fin A, v (ix3 a b c) := by
  refine (Ideal.multiReduction_add_single v acc h hφ hacc (ix2 b c)).trans ?_
  exact Finset.sum_congr rfl fun k _ => congrArg v (funext fun d => Fin.ext (by
    match d with | ⟨0, _⟩ => rfl | ⟨1, _⟩ => rfl | ⟨2, _⟩ => rfl))

/-- The sum over the second axis of `[A, B]`, at `a`. -/
theorem sum_last2 {A B : Nat} (v : FVec Ideal ⟨2, ![A, B]⟩ .f32) (acc : BitVec 32)
    (h : (⟨2, ![A, B]⟩ : Shape).Reduces [1] ⟨1, ![A]⟩) (hφ : FKind.Formats .f32)
    (hacc : acc = FKind.add.neutral .f32 hφ) (a : Fin A) :
    multiReduction .add [1] ⟨1, ![A]⟩ v acc h hφ hacc (ix1 a) = ∑ b : Fin B, v (ix2 a b) := by
  refine (Ideal.multiReduction_add_single v acc h hφ hacc (ix1 a)).trans ?_
  exact Finset.sum_congr rfl fun k _ => congrArg v (funext fun d => Fin.ext (by
    match d with | ⟨0, _⟩ => rfl | ⟨1, _⟩ => rfl))

/-- `[A, 1, B, C]` viewed as `[A, B, C]`: entry `(a, b, c)` is entry `(a, 0, b, c)`. -/
theorem squeeze_mid {α : Type} {A B C : Nat} (x : (⟨4, ![A, 1, B, C]⟩ : Shape).Idx → α)
    (h : (⟨4, ![A, 1, B, C]⟩ : Shape).ShapeCasts ⟨3, ![A, B, C]⟩) (a : Fin A) (b : Fin B) (c : Fin C) :
    shapeCast ⟨3, ![A, B, C]⟩ x h (ix3 a b c) = x (ix4 a (0 : Fin 1) b c) :=
  shapeCast_apply x h _ _ (by
    rw [Shape.rowMajor_val_four, Shape.rowMajor_val_three]
    show ((a.val * 1 + 0) * B + b.val) * C + c.val = (a.val * B + b.val) * C + c.val
    rw [Nat.mul_one, Nat.add_zero])

/-- Position `[0, 0]` of a `[1, 1]` array, as a vector extract spells it, is its entry `(0, 0)`. -/
theorem extract_00 {α : Type} (v : (⟨2, ![1, 1]⟩ : Shape).Idx → α)
    (h : ∀ a, (![0, 0] : Fin 2 → Nat) a < (⟨2, ![1, 1]⟩ : Shape).size a) :
    extractAt ![0, 0] v h = v (ix2 (0 : Fin 1) (0 : Fin 1)) :=
  congrArg v (funext fun a => Fin.ext (by match a with | ⟨0, _⟩ => rfl | ⟨1, _⟩ => rfl))

end Cert.LibLaneSum

end
-- ==== Proof.LibReal.lean ====
/-
  Which array operations keep every entry a real number.

  At the ideal instance a float is an extended real: a real number, or one of the two infinities.  The
  arithmetic of the extended reals is the reals' arithmetic only away from the infinities, so a statement about
  a network's value has to know that no infinity arises on the way.  This file says of each array operation
  that it maps arrays of real entries to arrays of real entries: the pointwise sum, difference, product and
  maximum; the choice between two arrays; every re-indexing (repeating along new axes, recasting the shape,
  cutting a block out, taking rows by an index array); a constant whose bit pattern denotes a real; the
  quotient by nonzero reals; the reciprocal square root of positive reals; a sum along an axis; a matrix
  product; and the accumulation of rows into a table.  Each statement is generic in the shapes.
-/
import Idealize.ShloMosaic.PureOps.Ideal
import Idealize.ShloMosaic.PureOps.Ideal.Laws

noncomputable section

namespace Cert.LibReal

open Idealize.ShloMosaic

/-- Every entry of the array is a real number: neither infinity. -/
def AllReal {S : Shape} (a : S.Idx → EReal) : Prop := ∀ i, ∃ r : ℝ, a i = (r : EReal)

/-- Every entry of the array is a nonzero real number. -/
def AllNonzero {S : Shape} (a : S.Idx → EReal) : Prop := ∀ i, ∃ r : ℝ, r ≠ 0 ∧ a i = (r : EReal)

/-- Every entry of the array is a positive real number. -/
def AllPos {S : Shape} (a : S.Idx → EReal) : Prop := ∀ i, ∃ r : ℝ, 0 < r ∧ a i = (r : EReal)

/-- Positive reals are nonzero reals. -/
theorem AllPos.allNonzero {S : Shape} {a : S.Idx → EReal} (h : AllPos a) : AllNonzero a := fun i => by
  obtain ⟨r, hr, e⟩ := h i
  exact ⟨r, hr.ne', e⟩

/-- Nonzero reals are reals. -/
theorem AllNonzero.allReal {S : Shape} {a : S.Idx → EReal} (h : AllNonzero a) : AllReal a := fun i => by
  obtain ⟨r, _, e⟩ := h i
  exact ⟨r, e⟩

/-- Positive reals are reals. -/
theorem AllPos.allReal {S : Shape} {a : S.Idx → EReal} (h : AllPos a) : AllReal a := h.allNonzero.allReal

/-- A finite sum of reals, taken in the extended reals, is the real sum. -/
theorem coe_finset_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of extended reals each of which is a real number is a real number. -/
theorem exists_real_sum {ι : Type} (s : Finset ι) (f : ι → EReal) (h : ∀ k ∈ s, ∃ r : ℝ, f k = (r : EReal)) :
    ∃ r : ℝ, ∑ k ∈ s, f k = (r : EReal) := by
  classical
  choose! g hg using h
  exact ⟨∑ k ∈ s, g k, by rw [coe_finset_sum]; exact Finset.sum_congr rfl hg⟩

/-! ## Pointwise operations -/

section Pointwise
variable {S : Shape} {φ : FTy}

/-- The entrywise sum of two arrays of reals is an array of reals. -/
theorem addf_allReal {a b : FVec Ideal S φ} (ha : AllReal a) (hb : AllReal b) : AllReal (addf a b) := fun i => by
  obtain ⟨r, hr⟩ := ha i
  obtain ⟨t, ht⟩ := hb i
  exact ⟨r + t, by show a i + b i = _; rw [hr, ht, EReal.coe_add]⟩

/-- The entrywise difference of two arrays of reals is an array of reals. -/
theorem subf_allReal {a b : FVec Ideal S φ} (ha : AllReal a) (hb : AllReal b) : AllReal (subf a b) := fun i => by
  obtain ⟨r, hr⟩ := ha i
  obtain ⟨t, ht⟩ := hb i
  exact ⟨r - t, by show a i - b i = _; rw [hr, ht, EReal.coe_sub]⟩

/-- The entrywise product of two arrays of reals is an array of reals. -/
theorem mulf_allReal {a b : FVec Ideal S φ} (ha : AllReal a) (hb : AllReal b) : AllReal (mulf a b) := fun i => by
  obtain ⟨r, hr⟩ := ha i
  obtain ⟨t, ht⟩ := hb i
  exact ⟨r * t, by show a i * b i = _; rw [hr, ht, EReal.coe_mul]⟩

/-- The entrywise maximum of two arrays of reals is an array of reals: at each entry it is one of the two. -/
theorem maximumf_allReal {a b : FVec Ideal S φ} (ha : AllReal a) (hb : AllReal b) : AllReal (maximumf a b) := fun i => by
  show ∃ r : ℝ, max (a i) (b i) = (r : EReal)
  rcases le_total (a i) (b i) with h | h
  · rw [max_eq_right h]; exact hb i
  · rw [max_eq_left h]; exact ha i

/-- The entrywise maximum with an array of positive reals is positive when the other array is real. -/
theorem maximumf_allPos_right {a b : FVec Ideal S φ} (ha : AllReal a) (hb : AllPos b) : AllPos (maximumf a b) := fun i => by
  show ∃ r : ℝ, 0 < r ∧ max (a i) (b i) = (r : EReal)
  obtain ⟨r, hr⟩ := ha i
  obtain ⟨t, ht0, ht⟩ := hb i
  refine ⟨max r t, lt_max_of_lt_right ht0, ?_⟩
  rw [hr, ht]
  rcases le_total r t with h | h
  · rw [max_eq_right h, max_eq_right (EReal.coe_le_coe_iff.mpr h)]
  · rw [max_eq_left h, max_eq_left (EReal.coe_le_coe_iff.mpr h)]

/-- Choosing entry by entry between two arrays of reals gives an array of reals. -/
theorem select_allReal (p : IVec S 1) {a b : S.Idx → EReal} (ha : AllReal a) (hb : AllReal b) :
    AllReal (select p a b) := fun i => by
  show ∃ r : ℝ, (if p i = 1 then a i else b i) = (r : EReal)
  split
  · exact ha i
  · exact hb i

/-- The entrywise quotient of an array of reals by an array of nonzero reals is an array of reals. -/
theorem divf_allReal {a b : FVec Ideal S φ} (ha : AllReal a) (hb : AllNonzero b) :
    AllReal (Host.divf (F := Ideal) a b) := fun i => by
  obtain ⟨r, hr⟩ := ha i
  obtain ⟨t, ht0, ht⟩ := hb i
  refine ⟨r * (1 / t), ?_⟩
  show Ideal.div (a i) (b i) = _
  rw [hr, ht, Ideal.div_coe ht0, EReal.coe_mul]

/-- The entrywise reciprocal square root of an array of positive reals is an array of positive reals. -/
theorem rsqrt_allPos {a : FVec Ideal S φ} (ha : AllPos a) : AllPos (Host.rsqrt (F := Ideal) a) := fun i => by
  obtain ⟨r, hr0, hr⟩ := ha i
  refine ⟨(Real.sqrt r)⁻¹, inv_pos.mpr (Real.sqrt_pos.mpr hr0), ?_⟩
  show Ideal.rsqrt (a i) = _
  rw [hr, Ideal.rsqrt_coe, if_neg (not_lt.mpr hr0.le), if_neg hr0.ne']

/-- The entrywise reciprocal square root of an array of positive reals is an array of reals. -/
theorem rsqrt_allReal {a : FVec Ideal S φ} (ha : AllPos a) : AllReal (Host.rsqrt (F := Ideal) a) :=
  (rsqrt_allPos ha).allReal

/-- An array of reals that are at least zero plus an array of positive reals is an array of positive reals. -/
theorem addf_allPos_of_nonneg {a b : FVec Ideal S φ} (ha : ∀ i, ∃ r : ℝ, 0 ≤ r ∧ a i = (r : EReal)) (hb : AllPos b) :
    AllPos (addf a b) := fun i => by
  obtain ⟨r, hr0, hr⟩ := ha i
  obtain ⟨t, ht0, ht⟩ := hb i
  exact ⟨r + t, by linarith, by show a i + b i = _; rw [hr, ht, EReal.coe_add]⟩

end Pointwise

/-! ## Re-indexings: every entry of the result is an entry of the operand -/

section Layout
variable {S T : Shape}

/-- Reading an array of reals through any map of indices gives an array of reals. -/
theorem comp_allReal {a : S.Idx → EReal} (ha : AllReal a) (f : T.Idx → S.Idx) : AllReal (fun j => a (f j)) :=
  fun j => ha (f j)

/-- Repeating an array of reals along new axes gives an array of reals. -/
theorem broadcastInDim_allReal (dims : Fin S.rank → Fin T.rank) (h : S.BroadcastsInDim T dims) {a : S.Idx → EReal}
    (ha : AllReal a) : AllReal (broadcastInDim T dims h a) := fun _ => ha _

/-- Repeating an array of positive reals along new axes gives an array of positive reals. -/
theorem broadcastInDim_allPos (dims : Fin S.rank → Fin T.rank) (h : S.BroadcastsInDim T dims) {a : S.Idx → EReal}
    (ha : AllPos a) : AllPos (broadcastInDim T dims h a) := fun _ => ha _

/-- Repeating an array of nonzero reals along new axes gives an array of nonzero reals. -/
theorem broadcastInDim_allNonzero (dims : Fin S.rank → Fin T.rank) (h : S.BroadcastsInDim T dims) {a : S.Idx → EReal}
    (ha : AllNonzero a) : AllNonzero (broadcastInDim T dims h a) := fun _ => ha _

/-- The same entries of an array of reals under another shape are an array of reals. -/
theorem shapeCast_allReal (h : S.ShapeCasts T) {a : S.Idx → EReal} (ha : AllReal a) : AllReal (shapeCast T a h) :=
  fun _ => ha _

/-- A block cut out of an array of reals is an array of reals. -/
theorem extractStridedSlice_allReal (off : Fin S.rank → Nat) (h : S.Slices off T) {a : S.Idx → EReal} (ha : AllReal a) :
    AllReal (extractStridedSlice T off a h) := fun _ => ha _

/-- Rows, or any slices, taken out of an array of reals by an index array are an array of reals, whatever the
    indices: each entry taken is an entry of the operand. -/
theorem gather_allReal {SI : Shape} {w : Nat} (d : GatherDims S SI T) (idx : IVec SI w) {a : S.Idx → EReal}
    (ha : AllReal a) : AllReal (Host.gather d a idx) := fun _ => ha _

end Layout

/-! ## Constants -/

/-- A constant array whose bit pattern denotes a real number is an array of reals. -/
theorem constant_allReal (S : Shape) (φ : FTy) (w : BitVec φ.bits) {r : ℝ} (h : Ideal.ofBits φ w = (r : EReal)) :
    AllReal (constant (F := Ideal) S φ w) := fun _ => ⟨r, h⟩

/-- A constant array whose bit pattern denotes a positive real number is an array of positive reals. -/
theorem constant_allPos (S : Shape) (φ : FTy) (w : BitVec φ.bits) {r : ℝ} (hr : 0 < r) (h : Ideal.ofBits φ w = (r : EReal)) :
    AllPos (constant (F := Ideal) S φ w) := fun _ => ⟨r, hr, h⟩

/-- The single-precision pattern of `+0.0` denotes `0`. -/
theorem ofBits_zero : Ideal.ofBits .f32 0x00000000#32 = ((0 : ℝ) : EReal) := by
  simp [Ideal.ofBits, Ideal.ieee]

/-- The single-precision pattern of `1.0` (biased exponent 127, significand 1) denotes `1`. -/
theorem ofBits_one : Ideal.ofBits .f32 0x3F800000#32 = ((1 : ℝ) : EReal) := by
  simp [Ideal.ofBits, Ideal.ieee, -EReal.coe_mul]; norm_num

/-- The single-precision pattern `0x47435000` (biased exponent 142, significand `12800000 / 2^23`) denotes
    `12800000 / 2^8 = 50000`. -/
theorem ofBits_50000 : Ideal.ofBits .f32 0x47435000#32 = ((50000 : ℝ) : EReal) := by
  simp [Ideal.ofBits, Ideal.ieee, -EReal.coe_mul]; norm_num

/-- The single-precision pattern `0x3727C5AC` (biased exponent 110, significand `10995116 / 2^23`), the float
    nearest `10^-5`, denotes the rational `10995116 / 2^40`. -/
theorem ofBits_eps : Ideal.ofBits .f32 0x3727C5AC#32 = ((10995116 / 2 ^ 40 : ℝ) : EReal) := by
  simp [Ideal.ofBits, Ideal.ieee, -EReal.coe_mul]; norm_num

/-- That rational is positive. -/
theorem eps_pos : (0 : ℝ) < 10995116 / 2 ^ 40 := by norm_num

/-! ## Finite sums: a sum along axes, a matrix product, an accumulation of updates -/

/-- A real number plus a finite sum of real numbers, taken in the extended reals, is a real number. -/
theorem exists_real_add_sum {ι : Type} (s : Finset ι) (c : EReal) (f : ι → EReal) (hc : ∃ r : ℝ, c = (r : EReal))
    (h : ∀ k ∈ s, ∃ r : ℝ, f k = (r : EReal)) : ∃ r : ℝ, c + ∑ k ∈ s, f k = (r : EReal) := by
  obtain ⟨r0, hr0⟩ := hc
  obtain ⟨r, hr⟩ := exists_real_sum s f h
  exact ⟨r0 + r, by rw [hr0, hr, EReal.coe_add]⟩

/-- The sum of an array of reals along any set of axes, started from a real initial value, is an array of reals:
    each entry is the initial value plus a finite sum of entries of the operand. -/
theorem reduceAdd_allReal {S T V : Shape} {φ : FTy} {axes : List (Fin S.rank)} {x : FVec Ideal S φ} {init : V.Idx → Ideal φ}
    (hx : AllReal x) (hinit : AllReal init) (h : S.ReducesTo axes T) (hv : 0 < V.numel) :
    AllReal (Host.reduceAdd (F := Ideal) x init h hv) := fun j => by
  show ∃ t : ℝ, Ideal.hostReduceAdd h x (init (Shape.Idx.first hv)) j = (t : EReal)
  unfold Ideal.hostReduceAdd
  exact exists_real_add_sum _ _ _ (hinit _) fun k _ => hx k

/-- The same for the sum a tiled program takes along axes of a block: each entry is a finite sum of entries of the
    operand. -/
theorem multiReduction_add_allReal {S T : Shape} {φ : FTy} {axes : List (Fin S.rank)} {x : FVec Ideal S φ} (hx : AllReal x)
    (acc : BitVec φ.bits) (h : S.Reduces axes T) (hφ : FKind.Formats φ) (hacc : acc = FKind.add.neutral φ hφ) :
    AllReal (multiReduction .add axes T x acc h hφ hacc) := fun j => by
  show ∃ t : ℝ, Ideal.reduceAdd h x j = (t : EReal)
  unfold Ideal.reduceAdd
  exact exists_real_sum _ _ fun k _ => hx k

/-- A product of two arrays of reals contracted over any axes is an array of reals: each entry is a finite sum of
    products of an entry of the one with an entry of the other. -/
theorem dotGeneral_allReal {SL SR SO : Shape} {φ₁ φ₂ : FTy} (d : DotDims SL SR SO) (prec : Option ContractPrecision)
    {l : FVec Ideal SL φ₁} {r : FVec Ideal SR φ₂} (hl : AllReal l) (hr : AllReal r) :
    AllReal (Host.dotGeneral (F := Ideal) d prec l r) := fun j => by
  show ∃ t : ℝ, FloatOps.dotGeneral d prec .single l r j = (t : EReal)
  rw [Ideal.dotGeneral_apply]
  refine exists_real_sum _ _ fun k _ => ?_
  obtain ⟨a, ha⟩ := hl (d.lhsIdx j k)
  obtain ⟨b, hb⟩ := hr (d.rhsIdx j k)
  exact ⟨a * b, by rw [ha, hb, EReal.coe_mul]⟩

/-- The same product added to an array of reals, as a tiled program accumulates it, is an array of reals. -/
theorem matmul_allReal {SL SR SO : Shape} {φ₁ φ₂ : FTy} (d : DotDims SL SR SO) (prec : Option ContractPrecision)
    {l : FVec Ideal SL φ₁} {r : FVec Ideal SR φ₂} {acc : FVec Ideal SO .f32} (hl : AllReal l) (hr : AllReal r)
    (hacc : AllReal acc) : AllReal (matmul (F := Ideal) d prec l r acc) := fun j => by
  show ∃ t : ℝ, FloatOps.matmul d prec l r acc j = (t : EReal)
  rw [Ideal.matmul_apply]
  refine exists_real_add_sum _ _ _ (hacc j) fun k _ => ?_
  obtain ⟨a, ha⟩ := hl (d.lhsIdx j k)
  obtain ⟨b, hb⟩ := hr (d.rhsIdx j k)
  exact ⟨a * b, by rw [ha, hb, EReal.coe_mul]⟩

/-- Accumulating an array of real updates into an array of reals at the places an index array names gives an array
    of reals, whatever the indices: each entry is the operand's entry plus the finite sum of the updates that
    land on it. -/
theorem scatterAdd_allReal {S SI SU : Shape} {φ : FTy} {w : Nat} (d : ScatterDims S SI SU) (idx : IVec SI w)
    {x : FVec Ideal S φ} {u : FVec Ideal SU φ} (hx : AllReal x) (hu : AllReal u) :
    AllReal (Host.scatterAdd (F := Ideal) d x idx u) := fun i => by
  show ∃ t : ℝ, Ideal.hostScatterAdd d x idx u i = (t : EReal)
  unfold Ideal.hostScatterAdd
  exact exists_real_add_sum _ _ _ (hx i) fun k _ => hu k

/-! ## Integers read as floats, and a choice whose condition is known -/

/-- A signed integer array read as floats is an array of reals: each entry is the integer itself. -/
theorem sitofp_allReal {S : Shape} {w : Nat} (φ : FTy) (x : IVec S w) : AllReal (sitofp (F := Ideal) φ x) :=
  fun i => ⟨((x i).toInt : ℝ), rfl⟩

/-- An unsigned integer array read as floats is an array of reals: each entry is the integer itself. -/
theorem uitofp_allReal {S : Shape} {w : Nat} (φ : FTy) (x : IVec S w) : AllReal (uitofp (F := Ideal) φ x) :=
  fun i => ⟨((x i).toNat : ℝ), rfl⟩

/-- The entrywise negative of an array of reals is an array of reals. -/
theorem negf_allReal {S : Shape} {φ : FTy} {a : FVec Ideal S φ} (ha : AllReal a) : AllReal (negf a) := fun i => by
  obtain ⟨r, hr⟩ := ha i
  exact ⟨-r, by show -(a i) = _; rw [hr, EReal.coe_neg]⟩

/-- Where the condition holds at every entry, the choice is its first array. -/
theorem select_of_true {S : Shape} {α : Type} {p : IVec S 1} (hp : ∀ i, p i = 1) (a b : S.Idx → α) : select p a b = a :=
  funext fun i => show (if p i = 1 then a i else b i) = a i from if_pos (hp i)

/-- Where the condition fails at every entry, the choice is its second array. -/
theorem select_of_false {S : Shape} {α : Type} {p : IVec S 1} (hp : ∀ i, p i ≠ 1) (a b : S.Idx → α) : select p a b = b :=
  funext fun i => show (if p i = 1 then a i else b i) = b i from if_neg (hp i)

/-- So such a choice is an array of reals as soon as its first array is, whatever the second holds. -/
theorem select_allReal_of_true {S : Shape} {p : IVec S 1} (hp : ∀ i, p i = 1) {a : S.Idx → EReal} (b : S.Idx → EReal)
    (ha : AllReal a) : AllReal (select p a b) := by
  rw [select_of_true hp]; exact ha

/-- The comparison `x > y` answers `1` at an entry where `y` is below `x`. -/
theorem cmpf_ogt_eq_one {S : Shape} {φ : FTy} {x y : FVec Ideal S φ} {i : S.Idx} (h : y i < x i) :
    cmpf (F := Ideal) .ogt x y i = 1 := by
  show BitVec.ofBool (decide (y i < x i)) = 1
  simp [h]

/-! ## Signs: arrays of reals that are at least zero -/

/-- Every entry of the array is a real number that is at least zero. -/
def AllNonneg {S : Shape} (a : S.Idx → EReal) : Prop := ∀ i, ∃ r : ℝ, 0 ≤ r ∧ a i = (r : EReal)

/-- Positive reals are at least zero. -/
theorem AllPos.allNonneg {S : Shape} {a : S.Idx → EReal} (h : AllPos a) : AllNonneg a := fun i => by
  obtain ⟨r, hr, e⟩ := h i
  exact ⟨r, hr.le, e⟩

/-- Reals that are at least zero are reals. -/
theorem AllNonneg.allReal {S : Shape} {a : S.Idx → EReal} (h : AllNonneg a) : AllReal a := fun i => by
  obtain ⟨r, _, e⟩ := h i
  exact ⟨r, e⟩

/-- A finite sum of extended reals each of which is a real at least zero is a real at least zero. -/
theorem exists_nonneg_sum {ι : Type} (s : Finset ι) (f : ι → EReal) (h : ∀ k ∈ s, ∃ r : ℝ, 0 ≤ r ∧ f k = (r : EReal)) :
    ∃ r : ℝ, 0 ≤ r ∧ ∑ k ∈ s, f k = (r : EReal) := by
  classical
  choose! g hg0 hg using h
  exact ⟨∑ k ∈ s, g k, Finset.sum_nonneg hg0, by rw [coe_finset_sum]; exact Finset.sum_congr rfl hg⟩

/-- A real at least zero plus such a sum is a real at least zero. -/
theorem exists_nonneg_add_sum {ι : Type} (s : Finset ι) (c : EReal) (f : ι → EReal)
    (hc : ∃ r : ℝ, 0 ≤ r ∧ c = (r : EReal)) (h : ∀ k ∈ s, ∃ r : ℝ, 0 ≤ r ∧ f k = (r : EReal)) :
    ∃ r : ℝ, 0 ≤ r ∧ c + ∑ k ∈ s, f k = (r : EReal) := by
  obtain ⟨r0, h0, hr0⟩ := hc
  obtain ⟨r, h1, hr⟩ := exists_nonneg_sum s f h
  exact ⟨r0 + r, add_nonneg h0 h1, by rw [hr0, hr, EReal.coe_add]⟩

section Signs
variable {S : Shape} {φ : FTy}

/-- A constant array whose bit pattern denotes a real at least zero is an array of such reals. -/
theorem constant_allNonneg (S : Shape) (φ : FTy) (w : BitVec φ.bits) {r : ℝ} (hr : 0 ≤ r)
    (h : Ideal.ofBits φ w = (r : EReal)) : AllNonneg (constant (F := Ideal) S φ w) := fun _ => ⟨r, hr, h⟩

/-- Repeating an array of reals at least zero along new axes gives an array of reals at least zero. -/
theorem broadcastInDim_allNonneg {T : Shape} (dims : Fin S.rank → Fin T.rank) (h : S.BroadcastsInDim T dims)
    {a : S.Idx → EReal} (ha : AllNonneg a) : AllNonneg (broadcastInDim T dims h a) := fun _ => ha _

/-- The sum of two arrays of reals at least zero is an array of reals at least zero. -/
theorem addf_allNonneg {a b : FVec Ideal S φ} (ha : AllNonneg a) (hb : AllNonneg b) : AllNonneg (addf a b) := fun i => by
  obtain ⟨r, hr0, hr⟩ := ha i
  obtain ⟨t, ht0, ht⟩ := hb i
  exact ⟨r + t, add_nonneg hr0 ht0, by show a i + b i = _; rw [hr, ht, EReal.coe_add]⟩

/-- The product of two arrays of reals at least zero is an array of reals at least zero. -/
theorem mulf_allNonneg {a b : FVec Ideal S φ} (ha : AllNonneg a) (hb : AllNonneg b) : AllNonneg (mulf a b) := fun i => by
  obtain ⟨r, hr0, hr⟩ := ha i
  obtain ⟨t, ht0, ht⟩ := hb i
  exact ⟨r * t, mul_nonneg hr0 ht0, by show a i * b i = _; rw [hr, ht, EReal.coe_mul]⟩

/-- The entrywise square of an array of reals is an array of reals at least zero. -/
theorem mulf_self_allNonneg {a : FVec Ideal S φ} (ha : AllReal a) : AllNonneg (mulf a a) := fun i => by
  obtain ⟨r, hr⟩ := ha i
  exact ⟨r * r, mul_self_nonneg r, by show a i * a i = _; rw [hr, EReal.coe_mul]⟩

/-- The entrywise maximum of an array of reals with an array of reals at least zero is at least zero: the rectifier
    `max x 0` among them. -/
theorem maximumf_allNonneg_right {a b : FVec Ideal S φ} (ha : AllReal a) (hb : AllNonneg b) :
    AllNonneg (maximumf a b) := fun i => by
  show ∃ r : ℝ, 0 ≤ r ∧ max (a i) (b i) = (r : EReal)
  obtain ⟨r, hr⟩ := ha i
  obtain ⟨t, ht0, ht⟩ := hb i
  refine ⟨max r t, le_max_of_le_right ht0, ?_⟩
  rw [hr, ht]
  rcases le_total r t with h | h
  · rw [max_eq_right h, max_eq_right (EReal.coe_le_coe_iff.mpr h)]
  · rw [max_eq_left h, max_eq_left (EReal.coe_le_coe_iff.mpr h)]

/-- The quotient of an array of reals at least zero by an array of positive reals is an array of reals at least
    zero. -/
theorem divf_allNonneg {a b : FVec Ideal S φ} (ha : AllNonneg a) (hb : AllPos b) :
    AllNonneg (Host.divf (F := Ideal) a b) := fun i => by
  obtain ⟨r, hr0, hr⟩ := ha i
  obtain ⟨t, ht0, ht⟩ := hb i
  refine ⟨r * (1 / t), mul_nonneg hr0 (one_div_pos.mpr ht0).le, ?_⟩
  show Ideal.div (a i) (b i) = _
  rw [hr, ht, Ideal.div_coe ht0.ne', EReal.coe_mul]

/-- The sum of an array of reals at least zero along any axes, started from a real at least zero, is an array of
    reals at least zero. -/
theorem reduceAdd_allNonneg {T V : Shape} {axes : List (Fin S.rank)} {x : FVec Ideal S φ} {init : V.Idx → Ideal φ}
    (hx : AllNonneg x) (hinit : AllNonneg init) (h : S.ReducesTo axes T) (hv : 0 < V.numel) :
    AllNonneg (Host.reduceAdd (F := Ideal) x init h hv) := fun j => by
  show ∃ t : ℝ, 0 ≤ t ∧ Ideal.hostReduceAdd h x (init (Shape.Idx.first hv)) j = (t : EReal)
  unfold Ideal.hostReduceAdd
  exact exists_nonneg_add_sum _ _ _ (hinit _) fun k _ => hx k

/-- Accumulating updates that are reals at least zero into an array of reals at least zero gives an array of reals
    at least zero, whatever the indices: a count of how many updates land on each entry among them. -/
theorem scatterAdd_allNonneg {SI SU : Shape} {w : Nat} (d : ScatterDims S SI SU) (idx : IVec SI w)
    {x : FVec Ideal S φ} {u : FVec Ideal SU φ} (hx : AllNonneg x) (hu : AllNonneg u) :
    AllNonneg (Host.scatterAdd (F := Ideal) d x idx u) := fun i => by
  show ∃ t : ℝ, 0 ≤ t ∧ Ideal.hostScatterAdd d x idx u i = (t : EReal)
  unfold Ideal.hostScatterAdd
  exact exists_nonneg_add_sum _ _ _ (hx i) fun k _ => hu k

end Signs

end Cert.LibReal

end
-- ==== Proof.Sage.lean ====
/-
  Two rounds of neighbour averaging followed by a linear map, then a log-softmax along each row, read one entry at a
  time at the extended reals.

  One layer: from a table A of averaged neighbour rows and the table X of the nodes' own rows, entry (r, q) of the
  layer is  sum_k A(r,k) Wl(k,q)  +  B(0,q)  +  sum_k X(r,k) Wr(k,q)  (lin). The hidden layer takes the maximum of that
  with zero (hidden); the last layer shifts each row by its maximum, and subtracts the logarithm of the row's sum of
  exponentials (logSoftmaxRow, scores). Row r of the result depends on row r of A and of X only, which is why a block of
  consecutive rows can be worked by itself: the first half of this file reads a block body (matrix products on narrowed
  operands into zero accumulators, a bias row repeated down the block, lane reductions along each row) at entry (p, q)
  as those functions of the block's row p; the second half reads the whole-array operations (contractions of the whole
  tables, the bias repeated down all rows, reductions of the second axis) at entry (r, q) as the same functions of the
  array's row r.

  The neighbour average is a sum of rows divided by the number of neighbours, at least one: dividing by d and
  multiplying by 1/d agree on the extended reals whenever d is a nonzero real number, infinite numerators included
  (mean_mul_eq_div), and a count of neighbours, a sum of ones, is a real number that the maximum with one keeps at
  least one (the facts about which operations keep entries real are taken from the file on real entries).
-/
import Idealize.ShloMosaic.PureOps.Ideal
import Idealize.ShloMosaic.PureOps.Ideal.Laws
import Idealize.ShloMosaic.Lib.ValueIdx
import Idealize.ShloMosaic.Lib.Pipeline.Value
import proofs.«120514_j71683004171208_1_alg».proof.Proof.LibBlocks
import proofs.«120514_j71683004171208_1_alg».proof.Proof.LibColumn
import proofs.«120514_j71683004171208_1_alg».proof.Proof.LibLaneSum
import proofs.«120514_j71683004171208_1_alg».proof.Proof.LibReal

noncomputable section

open scoped BigOperators

namespace Cert.Sage

open Idealize.ShloMosaic Idealize.ShloMosaic.ValueIdx

/-! ## The functions -/

section Spec

variable {N K M : Nat}

/-- Entry (r, q) of one layer before its nonlinearity: row r of A against column q of Wl, the bias row's entry q, row r
    of X against column q of Wr. -/
def lin (A X : FVec Ideal ⟨2, ![N, K]⟩ .f32) (Wl Wr : FVec Ideal ⟨2, ![K, M]⟩ .f32) (B : FVec Ideal ⟨2, ![1, M]⟩ .f32)
    (r : Fin N) (q : Fin M) : EReal :=
  (∑ k : Fin K, A (ix2 r k) * Wl (ix2 k q)) + B (ix2 (0 : Fin 1) q) + ∑ k : Fin K, X (ix2 r k) * Wr (ix2 k q)

/-- The hidden layer: the larger of the layer's entry and zero. -/
def hidden (A X : FVec Ideal ⟨2, ![N, K]⟩ .f32) (Wl Wr : FVec Ideal ⟨2, ![K, M]⟩ .f32) (B : FVec Ideal ⟨2, ![1, M]⟩ .f32) :
    FVec Ideal ⟨2, ![N, M]⟩ .f32 :=
  fun i => max (lin A X Wl Wr B (i 0) (i 1)) (Ideal.ofBits .f32 0x00000000#32)

/-- The largest entry of a row, starting from minus infinity. -/
def rowMax (z : Fin M → EReal) : EReal :=
  (Finset.univ : Finset (Fin M)).fold max (Ideal.ofBits .f32 0xFF800000#32) z

/-- Entry q of the log-softmax of a row: the entry less the row's maximum, less the logarithm of the sum over the row
    of the exponentials of the entries less the maximum. -/
def logSoftmaxRow (z : Fin M → EReal) (q : Fin M) : EReal :=
  (z q - rowMax z) - Ideal.log (∑ j : Fin M, Ideal.exp (z j - rowMax z))

/-- The last layer: the log-softmax of each row of the layer's entries. -/
def scores (A X : FVec Ideal ⟨2, ![N, K]⟩ .f32) (Wl Wr : FVec Ideal ⟨2, ![K, M]⟩ .f32) (B : FVec Ideal ⟨2, ![1, M]⟩ .f32) :
    FVec Ideal ⟨2, ![N, M]⟩ .f32 :=
  fun i => logSoftmaxRow (fun j => lin A X Wl Wr B (i 0) j) (i 1)

end Spec

/-! ## A row of a two-axis array, for the reductions of its second axis -/

section Rows

variable {N M : Nat}

/-- The reduced row index with column k put back is (r, k). -/
theorem lift_row (h : (⟨2, ![N, M]⟩ : Shape).Reduces [1] (⟨1, ![N]⟩ : Shape)) (r : Fin N)
    (k : Fin ((⟨2, ![N, M]⟩ : Shape).size 1)) : h.lift (ix1 r) k = ix2 r (⟨k.val, k.isLt⟩ : Fin M) := by
  funext c; apply Fin.ext
  fin_cases c <;> rfl

/-- Row r of an N x 1 column repeated along M columns, at (r, j): the column's entry (r, 0). -/
theorem col_idx (r : Fin N) (a : Fin 2) :
    ((ix2 r (0 : Fin 1) : (⟨2, ![N, 1]⟩ : Shape).Idx) a).val
      = if (⟨2, ![N, 1]⟩ : Shape).size a = 1 then 0 else ((ix2 r (0 : Fin 1) : (⟨2, ![N, 1]⟩ : Shape).Idx) a).val := by
  match a with
  | ⟨0, _⟩ =>
    show r.val = if N = 1 then 0 else r.val
    have := r.isLt
    split_ifs <;> omega
  | ⟨1, _⟩ => rfl

end Rows

/-! ## A block body read at one entry -/

section Block

variable {n K M : Nat}

/-- The block's linear part at (p, q): two products on narrowed operands into zero accumulators and the bias row
    repeated down the block are the layer's entry on the block's row p. -/
theorem linBody_apply (dk : DotDims ⟨2, ![n, K]⟩ ⟨2, ![K, M]⟩ ⟨2, ![n, M]⟩) (hdk : dk = DotDims.plain n K M)
    (hb : (⟨2, ![1, M]⟩ : Shape).Broadcasts ⟨2, ![n, M]⟩) (hlt : FTy.bf16.bits < FTy.f32.bits)
    (x0 x1 : FVec Ideal ⟨2, ![n, K]⟩ .f32) (wl wr : FVec Ideal ⟨2, ![K, M]⟩ .f32) (b : FVec Ideal ⟨2, ![1, M]⟩ .f32)
    (p : Fin n) (q : Fin M) :
    addf (addf (matmul dk none (truncf .bf16 x0 hlt) (truncf .bf16 wl hlt) (constant ⟨2, ![n, M]⟩ .f32 0x00000000#32))
        (broadcastTo ⟨2, ![n, M]⟩ b hb))
      (matmul dk none (truncf .bf16 x1 hlt) (truncf .bf16 wr hlt) (constant ⟨2, ![n, M]⟩ .f32 0x00000000#32)) (ix2 p q)
      = lin x0 x1 wl wr b p q := by
  rw [addf_apply, addf_apply]
  show FloatOps.matmul dk none _ _ _ _ + _ + FloatOps.matmul dk none _ _ _ _ = _
  rw [LibBlocks.matmul_plain_apply dk hdk, LibBlocks.matmul_plain_apply dk hdk,
    broadcastTo_apply b hb (ix2 p q) (ix2 (0 : Fin 1) q) (fun a => by
      match a with
      | ⟨0, _⟩ => rfl
      | ⟨1, _⟩ =>
        show q.val = if M = 1 then 0 else q.val
        have := q.isLt
        split_ifs <;> omega)]
  rfl

/-- The first body at (p, q): the larger of the linear part and zero. -/
theorem hiddenBody_apply (dk : DotDims ⟨2, ![n, K]⟩ ⟨2, ![K, M]⟩ ⟨2, ![n, M]⟩) (hdk : dk = DotDims.plain n K M)
    (hb : (⟨2, ![1, M]⟩ : Shape).Broadcasts ⟨2, ![n, M]⟩) (hlt : FTy.bf16.bits < FTy.f32.bits)
    (x0 x1 : FVec Ideal ⟨2, ![n, K]⟩ .f32) (wl wr : FVec Ideal ⟨2, ![K, M]⟩ .f32) (b : FVec Ideal ⟨2, ![1, M]⟩ .f32)
    (p : Fin n) (q : Fin M) :
    maximumf (addf (addf (matmul dk none (truncf .bf16 x0 hlt) (truncf .bf16 wl hlt) (constant ⟨2, ![n, M]⟩ .f32 0x00000000#32))
          (broadcastTo ⟨2, ![n, M]⟩ b hb))
        (matmul dk none (truncf .bf16 x1 hlt) (truncf .bf16 wr hlt) (constant ⟨2, ![n, M]⟩ .f32 0x00000000#32)))
      (broadcast ⟨2, ![n, M]⟩ (Scalar.ofBits (F := Ideal) .f32 0x00000000#32)) (ix2 p q)
      = max (lin x0 x1 wl wr b p q) (Ideal.ofBits .f32 0x00000000#32) := by
  rw [maximumf_apply, linBody_apply dk hdk hb hlt]
  rfl

/-- A lane maximum of the second axis from minus infinity, at row p: the row's maximum. -/
theorem laneMax_apply (Z : FVec Ideal ⟨2, ![n, M]⟩ .f32) (h : (⟨2, ![n, M]⟩ : Shape).Reduces [1] ⟨1, ![n]⟩)
    (hφ : FKind.Formats .f32) (hacc : (0xFF800000#32 : BitVec 32) = FKind.maximumf.neutral .f32 hφ) (p : Fin n) :
    multiReduction .maximumf [1] ⟨1, ![n]⟩ Z 0xFF800000#32 h hφ hacc (ix1 p) = rowMax fun j => Z (ix2 p j) := by
  refine (Ideal.multiReduction_maximumf_single Z _ h hφ hacc (ix1 p)).trans ?_
  have hf : (Z ∘ h.lift (ix1 p)) = fun k : Fin M => Z (ix2 p k) := funext fun k => congrArg Z (lift_row h p k)
  exact congrArg (fun f => Finset.fold max (Ideal.ofBits .f32 0xFF800000#32) f (Finset.univ : Finset (Fin M))) hf

/-- An array less its rows' maxima kept as a column and repeated along the rows, at (p, j). -/
theorem laneShift_apply (Z : FVec Ideal ⟨2, ![n, M]⟩ .f32) (h : (⟨2, ![n, M]⟩ : Shape).Reduces [1] ⟨1, ![n]⟩)
    (hφ : FKind.Formats .f32) (hacc : (0xFF800000#32 : BitVec 32) = FKind.maximumf.neutral .f32 hφ)
    (hc : (⟨1, ![n]⟩ : Shape).ShapeCasts ⟨2, ![n, 1]⟩) (hb : (⟨2, ![n, 1]⟩ : Shape).Broadcasts ⟨2, ![n, M]⟩)
    (p : Fin n) (j : Fin M) :
    subf Z (broadcastTo ⟨2, ![n, M]⟩ (shapeCast ⟨2, ![n, 1]⟩ (multiReduction .maximumf [1] ⟨1, ![n]⟩ Z 0xFF800000#32 h hφ hacc) hc) hb) (ix2 p j)
      = Z (ix2 p j) - rowMax fun j => Z (ix2 p j) := by
  rw [subf_apply, Cert.Proof.Column.broadcastTo_a1_ab_apply, Cert.Proof.Column.shapeCast_a_a1_apply, laneMax_apply]

/-- An array less the logarithm of its rows' sums of exponentials, kept as a column and repeated along the rows, at (p, q). -/
theorem laneLogNorm_apply (S : FVec Ideal ⟨2, ![n, M]⟩ .f32) (h : (⟨2, ![n, M]⟩ : Shape).Reduces [1] ⟨1, ![n]⟩)
    (hφ : FKind.Formats .f32) (hacc : (0x00000000#32 : BitVec 32) = FKind.add.neutral .f32 hφ)
    (hc : (⟨1, ![n]⟩ : Shape).ShapeCasts ⟨2, ![n, 1]⟩) (hb : (⟨2, ![n, 1]⟩ : Shape).Broadcasts ⟨2, ![n, M]⟩)
    (p : Fin n) (q : Fin M) :
    subf S (broadcastTo ⟨2, ![n, M]⟩ (log (shapeCast ⟨2, ![n, 1]⟩ (multiReduction .add [1] ⟨1, ![n]⟩ (exp S) 0x00000000#32 h hφ hacc) hc)) hb) (ix2 p q)
      = S (ix2 p q) - Ideal.log (∑ j : Fin M, Ideal.exp (S (ix2 p j))) := by
  rw [subf_apply, Cert.Proof.Column.broadcastTo_a1_ab_apply]
  show _ - FloatOps.log (shapeCast ⟨2, ![n, 1]⟩ (multiReduction .add [1] ⟨1, ![n]⟩ (exp S) 0x00000000#32 h hφ hacc) hc (ix2 p (0 : Fin 1))) = _
  rw [Cert.Proof.Column.shapeCast_a_a1_apply, Cert.LibLaneSum.sum_last2]
  rfl

end Block

/-! ## The whole-array operations read at one entry -/

section Whole

variable {N K M : Nat}

/-- The whole-array linear part at (r, q): two contractions of the tables and the bias row repeated down all rows are
    the layer's entry on row r. -/
theorem hostLin_apply (dr : DotDims ⟨2, ![N, K]⟩ ⟨2, ![K, M]⟩ ⟨2, ![N, M]⟩) (hdr : dr = DotDims.plain N K M)
    (hbd : (⟨2, ![1, M]⟩ : Shape).BroadcastsInDim ⟨2, ![N, M]⟩ ![0, 1])
    (A X : FVec Ideal ⟨2, ![N, K]⟩ .f32) (Wl Wr : FVec Ideal ⟨2, ![K, M]⟩ .f32) (B : FVec Ideal ⟨2, ![1, M]⟩ .f32)
    (r : Fin N) (q : Fin M) :
    addf (addf (Host.dotGeneral dr none A Wl) (broadcastInDim ⟨2, ![N, M]⟩ ![0, 1] hbd B)) (Host.dotGeneral dr none X Wr) (ix2 r q)
      = lin A X Wl Wr B r q := by
  rw [addf_apply, addf_apply]
  show FloatOps.dotGeneral dr none .single A Wl (ix2 r q) + _ + FloatOps.dotGeneral dr none .single X Wr (ix2 r q) = _
  rw [LibBlocks.dotGeneral_plain_apply dr hdr, LibBlocks.dotGeneral_plain_apply dr hdr,
    broadcastInDim_apply ![0, 1] hbd B (ix2 r q) (ix2 (0 : Fin 1) q) (fun a => by
      match a with
      | ⟨0, _⟩ => rfl
      | ⟨1, _⟩ =>
        show q.val = if M = 1 then 0 else q.val
        have := q.isLt
        split_ifs <;> omega)]
  rfl

/-- The whole-array hidden layer is the hidden layer. -/
theorem hostHidden_eq (dr : DotDims ⟨2, ![N, K]⟩ ⟨2, ![K, M]⟩ ⟨2, ![N, M]⟩) (hdr : dr = DotDims.plain N K M)
    (hbd : (⟨2, ![1, M]⟩ : Shape).BroadcastsInDim ⟨2, ![N, M]⟩ ![0, 1])
    (hz : (⟨0, ![]⟩ : Shape).BroadcastsInDim ⟨2, ![N, M]⟩ ![])
    (A X : FVec Ideal ⟨2, ![N, K]⟩ .f32) (Wl Wr : FVec Ideal ⟨2, ![K, M]⟩ .f32) (B : FVec Ideal ⟨2, ![1, M]⟩ .f32) :
    maximumf (addf (addf (Host.dotGeneral dr none A Wl) (broadcastInDim ⟨2, ![N, M]⟩ ![0, 1] hbd B)) (Host.dotGeneral dr none X Wr))
        (broadcastInDim ⟨2, ![N, M]⟩ ![] hz (constant (F := Ideal) ⟨0, ![]⟩ .f32 0x00000000#32))
      = hidden A X Wl Wr B := by
  funext i
  obtain ⟨r, q, rfl⟩ : ∃ (r : Fin N) (q : Fin M), i = ix2 r q := ⟨i 0, i 1, eq_ix2 i⟩
  rw [maximumf_apply, hostLin_apply dr hdr hbd,
    broadcastInDim_apply ![] hz (constant (F := Ideal) ⟨0, ![]⟩ .f32 0x00000000#32) (ix2 r q) ix0 (fun a => a.elim0)]
  rfl

/-- The host's maximum over the second axis from minus infinity, at row r: the row's maximum. -/
theorem hostMax_apply (Z : FVec Ideal ⟨2, ![N, M]⟩ .f32) (hT : (⟨2, ![N, M]⟩ : Shape).ReducesTo [1] ⟨1, ![N]⟩)
    (hR : (⟨2, ![N, M]⟩ : Shape).Reduces [1] ⟨1, ![N]⟩) (hu : 0 < (⟨0, ![]⟩ : Shape).numel) (r : Fin N) :
    Host.reduce FloatOps.maximumf Z (constant (F := Ideal) ⟨0, ![]⟩ .f32 0xFF800000#32) hT hu (ix1 r)
      = rowMax fun j => Z (ix2 r j) := by
  rw [Host.reduce_eq_fold_single FloatOps.maximumf Z _ hT hR hu]
  have hf : (Z ∘ hR.lift (ix1 r)) = fun k : Fin M => Z (ix2 r k) := funext fun k => congrArg Z (lift_row hR r k)
  exact congrArg (fun f => Finset.fold max (Ideal.ofBits .f32 0xFF800000#32) f (Finset.univ : Finset (Fin M))) hf

/-- The larger of minus infinity and a number is the number. -/
theorem max_negInf (y : EReal) : max (Ideal.ofBits .f32 0xFF800000#32) y = y := by
  simp [Ideal.ofBits, Ideal.ieee]

/-- An array less its rows' maxima (each once more compared with minus infinity), repeated along the rows, at (r, j). -/
theorem hostShift_apply (Z : FVec Ideal ⟨2, ![N, M]⟩ .f32) (hT : (⟨2, ![N, M]⟩ : Shape).ReducesTo [1] ⟨1, ![N]⟩)
    (hR : (⟨2, ![N, M]⟩ : Shape).Reduces [1] ⟨1, ![N]⟩) (hu : 0 < (⟨0, ![]⟩ : Shape).numel)
    (hz : (⟨0, ![]⟩ : Shape).BroadcastsInDim ⟨1, ![N]⟩ ![])
    (h0 : (⟨1, ![N]⟩ : Shape).BroadcastsInDim ⟨2, ![N, 1]⟩ ![0])
    (h01 : (⟨2, ![N, 1]⟩ : Shape).BroadcastsInDim ⟨2, ![N, M]⟩ ![0, 1]) (r : Fin N) (j : Fin M) :
    subf Z (broadcastInDim ⟨2, ![N, M]⟩ ![0, 1] h01 (broadcastInDim ⟨2, ![N, 1]⟩ ![0] h0
      (maximumf (broadcastInDim ⟨1, ![N]⟩ ![] hz (constant (F := Ideal) ⟨0, ![]⟩ .f32 0xFF800000#32))
        (Host.reduce FloatOps.maximumf Z (constant (F := Ideal) ⟨0, ![]⟩ .f32 0xFF800000#32) hT hu)))) (ix2 r j)
      = Z (ix2 r j) - rowMax fun j => Z (ix2 r j) := by
  rw [subf_apply,
    broadcastInDim_apply ![0, 1] h01 _ (ix2 r j) (ix2 r (0 : Fin 1)) (fun a => by
      match a with
      | ⟨0, _⟩ =>
        show r.val = if N = 1 then 0 else r.val
        have := r.isLt
        split_ifs <;> omega
      | ⟨1, _⟩ => rfl),
    broadcastInDim_apply ![0] h0 _ (ix2 r (0 : Fin 1)) (ix1 r) (fun a => by
      match a with
      | ⟨0, _⟩ =>
        show r.val = if N = 1 then 0 else r.val
        have := r.isLt
        split_ifs <;> omega),
    maximumf_apply,
    broadcastInDim_apply ![] hz (constant (F := Ideal) ⟨0, ![]⟩ .f32 0xFF800000#32) (ix1 r) ix0 (fun a => a.elim0),
    hostMax_apply Z hT hR hu r]
  show Z (ix2 r j) - max (Ideal.ofBits .f32 0xFF800000#32) _ = _
  rw [max_negInf]

/-- The host's sum over the second axis from zero, at row r. -/
theorem hostSum_apply (E : FVec Ideal ⟨2, ![N, M]⟩ .f32) (hT : (⟨2, ![N, M]⟩ : Shape).ReducesTo [1] ⟨1, ![N]⟩)
    (hR : (⟨2, ![N, M]⟩ : Shape).Reduces [1] ⟨1, ![N]⟩) (hu : 0 < (⟨0, ![]⟩ : Shape).numel) (r : Fin N) :
    Host.reduceAdd E (constant (F := Ideal) ⟨0, ![]⟩ .f32 0x00000000#32) hT hu (ix1 r) = ∑ j : Fin M, E (ix2 r j) := by
  simp only [Host.reduceAdd, Ideal.hostReduceAdd_def]
  rw [Ideal.hostReduceAdd_single hT hR]
  rw [show (constant (F := Ideal) ⟨0, ![]⟩ .f32 0x00000000#32) (Shape.Idx.first hu) = (0 : EReal) from Ideal.ofBits_zero_f32, zero_add]
  exact Finset.sum_congr rfl fun k _ => congrArg E (lift_row hR r k)

/-- An array less the logarithm of its rows' sums of exponentials, repeated along the rows, at (r, q). -/
theorem hostLogNorm_apply (S : FVec Ideal ⟨2, ![N, M]⟩ .f32) (hT : (⟨2, ![N, M]⟩ : Shape).ReducesTo [1] ⟨1, ![N]⟩)
    (hR : (⟨2, ![N, M]⟩ : Shape).Reduces [1] ⟨1, ![N]⟩) (hu : 0 < (⟨0, ![]⟩ : Shape).numel)
    (h0 : (⟨1, ![N]⟩ : Shape).BroadcastsInDim ⟨2, ![N, 1]⟩ ![0])
    (h01 : (⟨2, ![N, 1]⟩ : Shape).BroadcastsInDim ⟨2, ![N, M]⟩ ![0, 1]) (r : Fin N) (q : Fin M) :
    subf S (broadcastInDim ⟨2, ![N, M]⟩ ![0, 1] h01 (Host.log (broadcastInDim ⟨2, ![N, 1]⟩ ![0] h0
      (Host.reduceAdd (Host.exp S) (constant (F := Ideal) ⟨0, ![]⟩ .f32 0x00000000#32) hT hu)))) (ix2 r q)
      = S (ix2 r q) - Ideal.log (∑ j : Fin M, Ideal.exp (S (ix2 r j))) := by
  rw [subf_apply,
    broadcastInDim_apply ![0, 1] h01 _ (ix2 r q) (ix2 r (0 : Fin 1)) (fun a => by
      match a with
      | ⟨0, _⟩ =>
        show r.val = if N = 1 then 0 else r.val
        have := r.isLt
        split_ifs <;> omega
      | ⟨1, _⟩ => rfl)]
  show _ - FloatOps.hostUnary .log (broadcastInDim ⟨2, ![N, 1]⟩ ![0] h0
      (Host.reduceAdd (Host.exp S) (constant (F := Ideal) ⟨0, ![]⟩ .f32 0x00000000#32) hT hu) (ix2 r (0 : Fin 1))) = _
  rw [broadcastInDim_apply ![0] h0 _ (ix2 r (0 : Fin 1)) (ix1 r) (fun a => by
      match a with
      | ⟨0, _⟩ =>
        show r.val = if N = 1 then 0 else r.val
        have := r.isLt
        split_ifs <;> omega),
    hostSum_apply (Host.exp S) hT hR hu r]
  rfl

/-- The whole-array log-softmax of the whole-array linear part is the last layer. -/
theorem hostScores_eq (dr : DotDims ⟨2, ![N, K]⟩ ⟨2, ![K, M]⟩ ⟨2, ![N, M]⟩) (hdr : dr = DotDims.plain N K M)
    (hbd : (⟨2, ![1, M]⟩ : Shape).BroadcastsInDim ⟨2, ![N, M]⟩ ![0, 1])
    (hT : (⟨2, ![N, M]⟩ : Shape).ReducesTo [1] ⟨1, ![N]⟩) (hR : (⟨2, ![N, M]⟩ : Shape).Reduces [1] ⟨1, ![N]⟩)
    (hu : 0 < (⟨0, ![]⟩ : Shape).numel) (hz : (⟨0, ![]⟩ : Shape).BroadcastsInDim ⟨1, ![N]⟩ ![])
    (h0 : (⟨1, ![N]⟩ : Shape).BroadcastsInDim ⟨2, ![N, 1]⟩ ![0])
    (h01 : (⟨2, ![N, 1]⟩ : Shape).BroadcastsInDim ⟨2, ![N, M]⟩ ![0, 1])
    (A X : FVec Ideal ⟨2, ![N, K]⟩ .f32) (Wl Wr : FVec Ideal ⟨2, ![K, M]⟩ .f32) (B : FVec Ideal ⟨2, ![1, M]⟩ .f32)
    (Z S : FVec Ideal ⟨2, ![N, M]⟩ .f32)
    (hZ : Z = addf (addf (Host.dotGeneral dr none A Wl) (broadcastInDim ⟨2, ![N, M]⟩ ![0, 1] hbd B)) (Host.dotGeneral dr none X Wr))
    (hS : S = subf Z (broadcastInDim ⟨2, ![N, M]⟩ ![0, 1] h01 (broadcastInDim ⟨2, ![N, 1]⟩ ![0] h0
      (maximumf (broadcastInDim ⟨1, ![N]⟩ ![] hz (constant (F := Ideal) ⟨0, ![]⟩ .f32 0xFF800000#32))
        (Host.reduce FloatOps.maximumf Z (constant (F := Ideal) ⟨0, ![]⟩ .f32 0xFF800000#32) hT hu))))) :
    subf S (broadcastInDim ⟨2, ![N, M]⟩ ![0, 1] h01 (Host.log (broadcastInDim ⟨2, ![N, 1]⟩ ![0] h0
      (Host.reduceAdd (Host.exp S) (constant (F := Ideal) ⟨0, ![]⟩ .f32 0x00000000#32) hT hu))))
      = scores A X Wl Wr B := by
  funext i
  obtain ⟨r, q, rfl⟩ : ∃ (r : Fin N) (q : Fin M), i = ix2 r q := ⟨i 0, i 1, eq_ix2 i⟩
  rw [hostLogNorm_apply S hT hR hu h0 h01 r q]
  have hSj : ∀ j : Fin M, S (ix2 r j) = lin A X Wl Wr B r j - rowMax fun j => lin A X Wl Wr B r j := fun j => by
    have hZj : ∀ j : Fin M, Z (ix2 r j) = lin A X Wl Wr B r j := fun j => by rw [hZ, hostLin_apply dr hdr hbd]
    rw [hS, hostShift_apply Z hT hR hu hz h0 h01 r j, hZj j, funext hZj]
  simp only [hSj]
  rfl

end Whole

/-! ## Averaging: the product with a reciprocal against the quotient -/

section Mean

variable {N K : Nat}

/-- A table times the reciprocal of a positive count, the count first kept as a column and then repeated along the rows,
    is the table divided by the count laid out the same way: division by a nonzero real is the product with its
    reciprocal on every extended real. -/
theorem mean_mul_eq_div (hz : (⟨0, ![]⟩ : Shape).BroadcastsInDim ⟨1, ![N]⟩ ![])
    (h0 : (⟨1, ![N]⟩ : Shape).BroadcastsInDim ⟨2, ![N, 1]⟩ ![0])
    (h01 : (⟨2, ![N, 1]⟩ : Shape).BroadcastsInDim ⟨2, ![N, K]⟩ ![0, 1])
    (T : FVec Ideal ⟨2, ![N, K]⟩ .f32) (d : FVec Ideal ⟨1, ![N]⟩ .f32) (hd : Cert.LibReal.AllPos d) :
    mulf T (broadcastInDim ⟨2, ![N, K]⟩ ![0, 1] h01 (broadcastInDim ⟨2, ![N, 1]⟩ ![0] h0
        (Host.divf (broadcastInDim ⟨1, ![N]⟩ ![] hz (constant (F := Ideal) ⟨0, ![]⟩ .f32 0x3F800000#32)) d)))
      = Host.divf T (broadcastInDim ⟨2, ![N, K]⟩ ![0, 1] h01 (broadcastInDim ⟨2, ![N, 1]⟩ ![0] h0 d)) := by
  funext i
  obtain ⟨r, q, rfl⟩ : ∃ (r : Fin N) (q : Fin K), i = ix2 r q := ⟨i 0, i 1, eq_ix2 i⟩
  have hcol : ∀ a : Fin 2, ((ix2 r (0 : Fin 1) : (⟨2, ![N, 1]⟩ : Shape).Idx) a).val
      = if (⟨2, ![N, 1]⟩ : Shape).size a = 1 then 0 else ((ix2 r q : (⟨2, ![N, K]⟩ : Shape).Idx) ((![0, 1] : Fin 2 → Fin 2) a)).val := fun a => by
    match a with
    | ⟨0, _⟩ =>
      show r.val = if N = 1 then 0 else r.val
      have := r.isLt
      split_ifs <;> omega
    | ⟨1, _⟩ => rfl
  have hvec : ∀ a : Fin 1, ((ix1 r : (⟨1, ![N]⟩ : Shape).Idx) a).val
      = if (⟨1, ![N]⟩ : Shape).size a = 1 then 0 else ((ix2 r (0 : Fin 1) : (⟨2, ![N, 1]⟩ : Shape).Idx) ((![0] : Fin 1 → Fin 2) a)).val := fun a => by
    match a with
    | ⟨0, _⟩ =>
      show r.val = if N = 1 then 0 else r.val
      have := r.isLt
      split_ifs <;> omega
  rw [mulf_apply]
  show _ = Ideal.div (T (ix2 r q)) _
  rw [broadcastInDim_apply ![0, 1] h01 _ (ix2 r q) (ix2 r (0 : Fin 1)) hcol,
    broadcastInDim_apply ![0] h0 _ (ix2 r (0 : Fin 1)) (ix1 r) hvec,
    broadcastInDim_apply ![0, 1] h01 _ (ix2 r q) (ix2 r (0 : Fin 1)) hcol,
    broadcastInDim_apply ![0] h0 _ (ix2 r (0 : Fin 1)) (ix1 r) hvec]
  show T (ix2 r q) * Ideal.div (broadcastInDim ⟨1, ![N]⟩ ![] hz (constant (F := Ideal) ⟨0, ![]⟩ .f32 0x3F800000#32) (ix1 r)) (d (ix1 r))
    = Ideal.div (T (ix2 r q)) (d (ix1 r))
  rw [broadcastInDim_apply ![] hz (constant (F := Ideal) ⟨0, ![]⟩ .f32 0x3F800000#32) (ix1 r) ix0 (fun a => a.elim0)]
  obtain ⟨y, hy, e⟩ := hd (ix1 r)
  rw [e, constant_apply, Cert.LibReal.ofBits_one, Ideal.div_coe hy.ne', Ideal.div_coe hy.ne', ← EReal.coe_mul, one_mul]

end Mean

end Cert.Sage

end
-- ==== Proof.KMean.lean ====
/-
  The neighbour mean as a quotient. The number of edges arriving at a node is a sum of ones, a real number that is
  not negative, and its maximum with one is a real number that is at least one. So the product of the neighbour sum with
  one over that count is the quotient of the sum by the count, whatever extended real the sum is.
-/
import proofs.«120514_j71683004171208_1_alg».proof.Proof.KFold
import proofs.«120514_j71683004171208_1_alg».proof.Proof.Sage

noncomputable section

namespace Cert.Sage.Kernel

open Cert.KernelIdeal Cert.KernelIdeal.Gen Cert.KernelIdeal.Hand
open Idealize.ShloMosaic Idealize.ShloMosaic.TcCoe

/-- The clamped count of arriving edges is a positive real number at every node. -/
theorem deg_allPos (ei : (⟨S2x1600000, .i32⟩ : BufTy).Contents (Elt Ideal)) : Cert.LibReal.AllPos (deg (F := Ideal) ei) := by
  unfold deg
  exact Cert.LibReal.maximumf_allPos_right
    (Cert.LibReal.scatterAdd_allReal _ _
      (Cert.LibReal.broadcastInDim_allReal _ _ (Cert.LibReal.constant_allReal _ _ _ Cert.LibReal.ofBits_zero))
      (Cert.LibReal.broadcastInDim_allReal _ _ (Cert.LibReal.constant_allReal _ _ _ Cert.LibReal.ofBits_one)))
    (Cert.LibReal.broadcastInDim_allPos _ _ (Cert.LibReal.constant_allPos _ _ _ one_pos Cert.LibReal.ofBits_one))

/-- The mean of 128-column rows: the neighbour sum divided by the clamped count. -/
theorem mean128_eq (ei : (⟨S2x1600000, .i32⟩ : BufTy).Contents (Elt Ideal)) (feat : FVec Ideal S100000x128 .f32) :
    mean128 (F := Ideal) ei feat
      = Host.divf (agg128 ei feat) (broadcastInDim S100000x128 ![0, 1] bcast_S100000x1_S100000x128_0_1
          (broadcastInDim S100000x1 ![0] bcast_S100000_S100000x1_0 (deg ei))) := by
  unfold mean128 degInv
  exact Sage.mean_mul_eq_div (N := 100000) (K := 128) bcast_S_S100000 bcast_S100000_S100000x1_0
    bcast_S100000x1_S100000x128_0_1 (agg128 ei feat) (deg ei) (deg_allPos ei)

/-- The mean of 64-column rows: the neighbour sum divided by the clamped count. -/
theorem mean64_eq (ei : (⟨S2x1600000, .i32⟩ : BufTy).Contents (Elt Ideal)) (feat : FVec Ideal S100000x64 .f32) :
    mean64 (F := Ideal) ei feat
      = Host.divf (agg64 ei feat) (broadcastInDim S100000x64 ![0, 1] bcast_S100000x1_S100000x64_0_1
          (broadcastInDim S100000x1 ![0] bcast_S100000_S100000x1_0 (deg ei))) := by
  unfold mean64 degInv
  exact Sage.mean_mul_eq_div (N := 100000) (K := 64) bcast_S_S100000 bcast_S100000_S100000x1_0
    bcast_S100000x1_S100000x64_0_1 (agg64 ei feat) (deg ei) (deg_allPos ei)

end Cert.Sage.Kernel

end
-- ==== Proof.Layer1.lean ====
/-
  The first layer's blocks. The hidden table of 100000 rows is worked in 20 blocks of 5000 consecutive rows: at block t
  the body sees rows 5000 t .. 5000 t + 4999 of the averaged table and of the node table, and the two weight tables and
  the bias row whole. Entry (p, q) of what the body stores is the hidden layer's entry (5000 t + p, q), because that
  entry depends on row 5000 t + p of the two tables only; the blocks tile the hidden table, so after the last block the
  table holds the hidden layer everywhere.
-/
import proofs.«120514_j71683004171208_1_alg».proof.Proof.Gen.KernelIdeal.Frame
import proofs.«120514_j71683004171208_1_alg».proof.Proof.Sage

set_option maxRecDepth 16384

noncomputable section

open scoped BigOperators

namespace Cert.Sage.Layer1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The body's stored value at one entry -/

/-- Entry (p, q) of the stored block: the larger of zero and the layer's entry on the block's row p. -/
theorem stored_apply (x0 x1 : Vec Ideal S5000x128 .f32) (wl wr : Vec Ideal S128x64 .f32) (b : Vec Ideal S1x64 .f32)
    (p : Fin 5000) (q : Fin 64) :
    k0_pay1 (F := Ideal) x0 x1 wl wr b (ix2 p q)
      = max (Sage.lin (N := 5000) (K := 128) (M := 64) x0 x1 wl wr b p q) (Ideal.ofBits .f32 0x00000000#32) := by
  unfold k0_pay1
  rw [shapeCast_self, shapeCast_self]
  exact Sage.hiddenBody_apply (n := 5000) (K := 128) (M := 64) dot_S5000x128_S128x64_S5000x64_1_0_0_1_n_n rfl _ _ x0 x1 wl wr b p q

/-- The stored block's entry (p, q) is the hidden layer's entry (r, q) of whole tables whose row r is the block's row p. -/
theorem stored_eq_hidden (x0 x1 : Vec Ideal S5000x128 .f32) (wl wr : Vec Ideal S128x64 .f32) (b : Vec Ideal S1x64 .f32)
    (A X : FVec Ideal S100000x128 .f32) (Wl Wr : FVec Ideal S128x64 .f32) (B : FVec Ideal S1x64 .f32)
    (p : Fin 5000) (q : Fin 64) (r : Fin 100000)
    (hA : ∀ k : Fin 128, x0 (ix2 p k) = A (ix2 r k)) (hX : ∀ k : Fin 128, x1 (ix2 p k) = X (ix2 r k))
    (hWl : wl = Wl) (hWr : wr = Wr) (hB : b = B) :
    k0_pay1 (F := Ideal) x0 x1 wl wr b (ix2 p q)
      = Sage.hidden (N := 100000) (K := 128) (M := 64) A X Wl Wr B (ix2 r q) := by
  subst hWl hWr hB
  rw [stored_apply]
  show max (Sage.lin (N := 5000) (K := 128) (M := 64) x0 x1 wl wr b p q) _ = max (Sage.lin (N := 100000) (K := 128) (M := 64) A X wl wr b r q) _
  unfold Sage.lin
  simp only [hA, hX]

/-! ## The blocks -/

section Blocks

variable (V : (c : Dev nD) → (b : Ref sig .tc) → Buf (Elt Ideal) ((c : Thread nD τ).loc b))

theorem hz : (![0, 0] : Fin 2 → Nat) = fun _ => 0 := funext fun a => by fin_cases a <;> rfl

/-- The index maps over the 20 blocks: the row tables and the result move together down the rows; the weight tables
    and the bias row stay. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 19 :=
  (by decide +kernel : ∀ t : Fin grid0.N, _)

/-- Every block of rows is some point's. -/
theorem idx_onto : ∀ q0 : Fin 20, ∃ t : Fin cfg0.N, win0_5.index t = ![q0.val, 0] :=
  (by decide +kernel : ∀ q0 : Fin 20, ∃ t : Fin grid0.N, win0_5.index t = ![q0.val, 0])

/-- What block t writes back is block t of the hidden layer of the tables as the region finds them. -/
theorem flushed_eq (c : Dev nD) (t : Fin cfg0.N) :
    (dat0 V c).flushed 5 t = ((cfg0.win 5).blk t).view.read (Elt Ideal)
      (Sage.hidden (N := 100000) (K := 128) (M := 64) (V c main_v24) (V c main_arg0) (V c main_arg2) (V c main_arg4) (V c main_v25)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x64) hz, View.ld_unit_zero (S := S1x64) hz]
  obtain ⟨e00, e01, e10, e11, e20, e21, e30, e31, e40, e41, e51, e5⟩ := idx_facts t
  funext j
  obtain ⟨p, q, rfl⟩ : ∃ (p : Fin 5000) (q : Fin 64), j = ix2 p q := ⟨j 0, j 1, eq_ix2 j⟩
  have hr : win0_5.index t (0 : Fin 2) * 5000 + p.val < 100000 := by have := p.isLt; omega
  show k0_pay1 (F := Ideal) (iblk0 V c 0 t) (iblk0 V c 1 t) (iblk0 V c 2 t) (iblk0 V c 4 t) (iblk0 V c 3 t) (ix2 p q)
      = Sage.hidden (N := 100000) (K := 128) (M := 64) (V c main_v24) (V c main_arg0) (V c main_arg2) (V c main_arg4) (V c main_v25)
          (((cfg0.win 5).blk t).view.emb (ix2 p q))
  have hemb : ((cfg0.win 5).blk t).view.emb (ix2 p q)
      = (ix2 (⟨win0_5.index t (0 : Fin 2) * 5000 + p.val, hr⟩ : Fin 100000) q : S100000x64.Idx) := by
    funext a; apply Fin.ext
    match a with
    | ⟨0, _⟩ => show win0_5.index t (0 : Fin 2) * 5000 + 1 * p.val = win0_5.index t (0 : Fin 2) * 5000 + p.val; omega
    | ⟨1, _⟩ => show win0_5.index t (1 : Fin 2) * 64 + 1 * q.val = q.val; omega
  rw [hemb]
  refine stored_eq_hidden (iblk0 V c 0 t) (iblk0 V c 1 t) (iblk0 V c 2 t) (iblk0 V c 4 t) (iblk0 V c 3 t)
    (V c main_v24) (V c main_arg0) (V c main_arg2) (V c main_arg4) (V c main_v25) p q ⟨_, hr⟩ (fun k => ?_) (fun k => ?_) ?_ ?_ ?_
  · show V c main_v24 (((cfg0.win 0).blk t).view.emb (ix2 p k)) = V c main_v24 (ix2 (⟨win0_5.index t (0 : Fin 2) * 5000 + p.val, hr⟩ : Fin 100000) k)
    refine congrArg (V c main_v24) (funext fun a => Fin.ext ?_)
    match a with
    | ⟨0, _⟩ => show win0_0.index t (0 : Fin 2) * 5000 + 1 * p.val = win0_5.index t (0 : Fin 2) * 5000 + p.val; omega
    | ⟨1, _⟩ => show win0_0.index t (1 : Fin 2) * 128 + 1 * k.val = k.val; omega
  · show V c main_arg0 (((cfg0.win 1).blk t).view.emb (ix2 p k)) = V c main_arg0 (ix2 (⟨win0_5.index t (0 : Fin 2) * 5000 + p.val, hr⟩ : Fin 100000) k)
    refine congrArg (V c main_arg0) (funext fun a => Fin.ext ?_)
    match a with
    | ⟨0, _⟩ => show win0_1.index t (0 : Fin 2) * 5000 + 1 * p.val = win0_5.index t (0 : Fin 2) * 5000 + p.val; omega
    | ⟨1, _⟩ => show win0_1.index t (1 : Fin 2) * 128 + 1 * k.val = k.val; omega
  · funext y
    show V c main_arg2 (((cfg0.win 2).blk t).view.emb y) = V c main_arg2 y
    refine congrArg (V c main_arg2) (funext fun a => Fin.ext ?_)
    match a with
    | ⟨0, _⟩ => show win0_2.index t (0 : Fin 2) * 128 + 1 * (y 0).val = (y 0).val; omega
    | ⟨1, _⟩ => show win0_2.index t (1 : Fin 2) * 64 + 1 * (y 1).val = (y 1).val; omega
  · funext y
    show V c main_arg4 (((cfg0.win 4).blk t).view.emb y) = V c main_arg4 y
    refine congrArg (V c main_arg4) (funext fun a => Fin.ext ?_)
    match a with
    | ⟨0, _⟩ => show win0_4.index t (0 : Fin 2) * 128 + 1 * (y 0).val = (y 0).val; omega
    | ⟨1, _⟩ => show win0_4.index t (1 : Fin 2) * 64 + 1 * (y 1).val = (y 1).val; omega
  · funext y
    show V c main_v25 (((cfg0.win 3).blk t).view.emb y) = V c main_v25 y
    refine congrArg (V c main_v25) (funext fun a => Fin.ext ?_)
    match a with
    | ⟨0, _⟩ => show win0_3.index t (0 : Fin 2) * 1 + 1 * (y 0).val = (y 0).val; omega
    | ⟨1, _⟩ => show win0_3.index t (1 : Fin 2) * 64 + 1 * (y 1).val = (y 1).val; omega

/-- An index of the hidden table is in block t iff each coordinate is in the block's range on its axis. -/
theorem mem_blk (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v26).slice (win0_5.rect t)).set ↔ _
  rw [View.set_slice_whole, Rect.mem_set_unit]
  exact Iff.rfl

/-- Row r lies in block r / 5000. -/
theorem cover (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 64 ≤ (i 1).val ∧ (i 1).val < win0_5.index t (1 : Fin 2) * 64 + 64
    omega

/-- After the last block the hidden table holds the hidden layer of the tables as the region found them. -/
theorem final (c : Dev nD) :
    (dat0 V c).arrAt 5 cfg0.N
      = Sage.hidden (N := 100000) (K := 128) (M := 64) (V c main_v24) (V c main_arg0) (V c main_arg2) (V c main_arg4) (V c main_v25) :=
  (dat0 V c).arrAt_eq_of_cover 5 _ (fun t _ => flushed_eq V c t) cover

end Blocks

end Cert.Sage.Layer1

end
-- ==== Proof.Layer2.lean ====
/-
  The second layer's blocks. The score table of 100000 rows is worked in 20 blocks of 5000 consecutive rows: at block t
  the body sees rows 5000 t .. 5000 t + 4999 of the averaged hidden table and of the hidden table, and the two weight
  tables and the bias row whole. Entry (p, q) of what the body stores is the score table's entry (5000 t + p, q): the
  log-softmax of a row depends on that row only, and the row of the layer before it depends on row 5000 t + p of the
  two tables only. The blocks tile the score table, so after the last block the table holds the scores everywhere.
-/
import proofs.«120514_j71683004171208_1_alg».proof.Proof.Gen.KernelIdeal.Frame
import proofs.«120514_j71683004171208_1_alg».proof.Proof.Sage

set_option maxRecDepth 16384

noncomputable section

open scoped BigOperators

namespace Cert.Sage.Layer2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The body's stored value at one entry -/

set_option backward.isDefEq.respectTransparency.types false in
/-- Entry (p, q) of the stored block: entry q of the log-softmax of the layer's row on the block's row p. -/
theorem stored_apply (x0 x1 : Vec Ideal S5000x64 .f32) (wl wr : Vec Ideal S64x40 .f32) (b : Vec Ideal S1x40 .f32)
    (p : Fin 5000) (q : Fin 40) :
    k1_pay1 (F := Ideal) x0 x1 wl wr b (ix2 p q)
      = Sage.logSoftmaxRow (fun j => Sage.lin (N := 5000) (K := 64) (M := 40) x0 x1 wl wr b p j) q := by
  unfold k1_pay1
  rw [shapeCast_self, shapeCast_self, shapeCast_self]
  rw [Sage.laneLogNorm_apply (n := 5000) (M := 40)]
  simp only [Sage.laneShift_apply (n := 5000) (M := 40)]
  simp only [Sage.linBody_apply (n := 5000) (K := 64) (M := 40) dot_S5000x64_S64x40_S5000x40_1_0_0_1_n_n rfl]
  rfl

/-- The stored block's entry (p, q) is the score table's entry (r, q) of whole tables whose row r is the block's row p:
    the two row sums of the layer run over row p of the blocks, which is row r of the tables, and the log-softmax reads
    nothing but that row of the layer. -/
theorem stored_eq_scores (x0 x1 : Vec Ideal S5000x64 .f32) (wl wr : Vec Ideal S64x40 .f32) (b : Vec Ideal S1x40 .f32)
    (A X : FVec Ideal S100000x64 .f32) (Wl Wr : FVec Ideal S64x40 .f32) (B : FVec Ideal S1x40 .f32)
    (p : Fin 5000) (q : Fin 40) (r : Fin 100000)
    (hA : ∀ k : Fin 64, x0 (ix2 p k) = A (ix2 r k)) (hX : ∀ k : Fin 64, x1 (ix2 p k) = X (ix2 r k))
    (hWl : wl = Wl) (hWr : wr = Wr) (hB : b = B) :
    k1_pay1 (F := Ideal) x0 x1 wl wr b (ix2 p q)
      = Sage.scores (N := 100000) (K := 64) (M := 40) A X Wl Wr B (ix2 r q) := by
  subst hWl hWr hB
  rw [stored_apply]
  show Sage.logSoftmaxRow (fun j => Sage.lin (N := 5000) (K := 64) (M := 40) x0 x1 wl wr b p j) q
    = Sage.logSoftmaxRow (fun j => Sage.lin (N := 100000) (K := 64) (M := 40) A X wl wr b r j) q
  have hrow : (fun j : Fin 40 => Sage.lin (N := 5000) (K := 64) (M := 40) x0 x1 wl wr b p j)
      = fun j : Fin 40 => Sage.lin (N := 100000) (K := 64) (M := 40) A X wl wr b r j := by
    funext j
    unfold Sage.lin
    simp only [hA, hX]
  rw [hrow]

/-! ## The blocks -/

section Blocks

variable (V : (c : Dev nD) → (b : Ref sig .tc) → Buf (Elt Ideal) ((c : Thread nD τ).loc b))

theorem hz : (![0, 0] : Fin 2 → Nat) = fun _ => 0 := funext fun a => by fin_cases a <;> rfl

/-- The index maps over the 20 blocks: the two row tables and the score table step down the rows together; the weight
    tables and the bias row do not move. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 19 :=
  (by decide +kernel : ∀ t : Fin grid1.N, _)

/-- Each of the 20 row blocks is visited at some point. -/
theorem idx_onto : ∀ q0 : Fin 20, ∃ t : Fin cfg1.N, win1_5.index t = ![q0.val, 0] :=
  (by decide +kernel : ∀ q0 : Fin 20, ∃ t : Fin grid1.N, win1_5.index t = ![q0.val, 0])

/-- What block t writes back is block t of the score table of the tables as the region finds them. -/
theorem flushed_eq (c : Dev nD) (t : Fin cfg1.N) :
    (dat1 V c).flushed 5 t = ((cfg1.win 5).blk t).view.read (Elt Ideal)
      (Sage.scores (N := 100000) (K := 64) (M := 40) (V c main_v38) (V c main_v26) (V c main_arg5) (V c main_arg7) (V c main_v39)) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x40) hz, View.ld_unit_zero (S := S1x40) hz]
  obtain ⟨e00, e01, e10, e11, e20, e21, e30, e31, e40, e41, e51, e5⟩ := idx_facts t
  funext j
  obtain ⟨p, q, rfl⟩ : ∃ (p : Fin 5000) (q : Fin 40), j = ix2 p q := ⟨j 0, j 1, eq_ix2 j⟩
  have hr : win1_5.index t (0 : Fin 2) * 5000 + p.val < 100000 := by have := p.isLt; omega
  show k1_pay1 (F := Ideal) (iblk1 V c 0 t) (iblk1 V c 1 t) (iblk1 V c 2 t) (iblk1 V c 4 t) (iblk1 V c 3 t) (ix2 p q)
      = Sage.scores (N := 100000) (K := 64) (M := 40) (V c main_v38) (V c main_v26) (V c main_arg5) (V c main_arg7) (V c main_v39)
          (((cfg1.win 5).blk t).view.emb (ix2 p q))
  have hemb : ((cfg1.win 5).blk t).view.emb (ix2 p q)
      = (ix2 (⟨win1_5.index t (0 : Fin 2) * 5000 + p.val, hr⟩ : Fin 100000) q : S100000x40.Idx) := by
    funext a; apply Fin.ext
    match a with
    | ⟨0, _⟩ => show win1_5.index t (0 : Fin 2) * 5000 + 1 * p.val = win1_5.index t (0 : Fin 2) * 5000 + p.val; omega
    | ⟨1, _⟩ => show win1_5.index t (1 : Fin 2) * 40 + 1 * q.val = q.val; omega
  rw [hemb]
  refine stored_eq_scores (iblk1 V c 0 t) (iblk1 V c 1 t) (iblk1 V c 2 t) (iblk1 V c 4 t) (iblk1 V c 3 t)
    (V c main_v38) (V c main_v26) (V c main_arg5) (V c main_arg7) (V c main_v39) p q ⟨_, hr⟩ (fun k => ?_) (fun k => ?_) ?_ ?_ ?_
  · show V c main_v38 (((cfg1.win 0).blk t).view.emb (ix2 p k)) = V c main_v38 (ix2 (⟨win1_5.index t (0 : Fin 2) * 5000 + p.val, hr⟩ : Fin 100000) k)
    refine congrArg (V c main_v38) (funext fun a => Fin.ext ?_)
    match a with
    | ⟨0, _⟩ => show win1_0.index t (0 : Fin 2) * 5000 + 1 * p.val = win1_5.index t (0 : Fin 2) * 5000 + p.val; omega
    | ⟨1, _⟩ => show win1_0.index t (1 : Fin 2) * 64 + 1 * k.val = k.val; omega
  · show V c main_v26 (((cfg1.win 1).blk t).view.emb (ix2 p k)) = V c main_v26 (ix2 (⟨win1_5.index t (0 : Fin 2) * 5000 + p.val, hr⟩ : Fin 100000) k)
    refine congrArg (V c main_v26) (funext fun a => Fin.ext ?_)
    match a with
    | ⟨0, _⟩ => show win1_1.index t (0 : Fin 2) * 5000 + 1 * p.val = win1_5.index t (0 : Fin 2) * 5000 + p.val; omega
    | ⟨1, _⟩ => show win1_1.index t (1 : Fin 2) * 64 + 1 * k.val = k.val; omega
  · funext y
    show V c main_arg5 (((cfg1.win 2).blk t).view.emb y) = V c main_arg5 y
    refine congrArg (V c main_arg5) (funext fun a => Fin.ext ?_)
    match a with
    | ⟨0, _⟩ => show win1_2.index t (0 : Fin 2) * 64 + 1 * (y 0).val = (y 0).val; omega
    | ⟨1, _⟩ => show win1_2.index t (1 : Fin 2) * 40 + 1 * (y 1).val = (y 1).val; omega
  · funext y
    show V c main_arg7 (((cfg1.win 4).blk t).view.emb y) = V c main_arg7 y
    refine congrArg (V c main_arg7) (funext fun a => Fin.ext ?_)
    match a with
    | ⟨0, _⟩ => show win1_4.index t (0 : Fin 2) * 64 + 1 * (y 0).val = (y 0).val; omega
    | ⟨1, _⟩ => show win1_4.index t (1 : Fin 2) * 40 + 1 * (y 1).val = (y 1).val; omega
  · funext y
    show V c main_v39 (((cfg1.win 3).blk t).view.emb y) = V c main_v39 y
    refine congrArg (V c main_v39) (funext fun a => Fin.ext ?_)
    match a with
    | ⟨0, _⟩ => show win1_3.index t (0 : Fin 2) * 1 + 1 * (y 0).val = (y 0).val; omega
    | ⟨1, _⟩ => show win1_3.index t (1 : Fin 2) * 40 + 1 * (y 1).val = (y 1).val; omega

/-- An index of the score table is in block t iff each coordinate is in the block's range on its axis. -/
theorem mem_blk (t : Fin cfg1.N) (i : S100000x40.Idx) :
    i ∈ ((cfg1.win 5).blk t).view.set ↔ ∀ a : Fin 2, win1_5.index t a * S5000x40.size a ≤ (i a).val
      ∧ (i a).val < win1_5.index t a * S5000x40.size a + S5000x40.size a := by
  show i ∈ ((View.whole main_v40).slice (win1_5.rect t)).set ↔ _
  rw [View.set_slice_whole, Rect.mem_set_unit]
  exact Iff.rfl

/-- Row r of the score table lies in block r / 5000, and every block is written back. -/
theorem cover (i : S100000x40.Idx) : ∃ t : Fin cfg1.N, (cfg1.win 5).flush t = true ∧ i ∈ ((cfg1.win 5).blk t).view.set := by
  have hi0 : (i 0).val < 100000 := (i 0).isLt
  have hi1 : (i 1).val < 40 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 40 ≤ (i 1).val ∧ (i 1).val < win1_5.index t (1 : Fin 2) * 40 + 40
    omega

/-- After the last block the score table holds the scores of the tables as the region found them. -/
theorem final (c : Dev nD) :
    (dat1 V c).arrAt 5 cfg1.N
      = Sage.scores (N := 100000) (K := 64) (M := 40) (V c main_v38) (V c main_v26) (V c main_arg5) (V c main_arg7) (V c main_v39) :=
  (dat1 V c).arrAt_eq_of_cover 5 _ (fun t _ => flushed_eq V c t) cover

end Blocks

end Cert.Sage.Layer2

end
-- ==== Proof.KValue.lean ====
/-
  The kernel program's result as a function of its arguments. From the launch contents, the first stretch of host
  operations forms the neighbour mean of the node table; the first region turns it, block by block, into the hidden
  layer; the second stretch forms the neighbour mean of the hidden layer; the second region turns that, block by block,
  into the row-wise log-softmax of the second layer. Reading the buffer contents at each boundary in turn gives the
  result table as the last layer of the hidden layer of the arguments (outK), and the run of the program ends with the
  result buffer holding it and the arguments unchanged.
-/
import proofs.«120514_j71683004171208_1_alg».proof.Proof.KRun
import proofs.«120514_j71683004171208_1_alg».proof.Proof.KFold
import proofs.«120514_j71683004171208_1_alg».proof.Proof.KMean
import proofs.«120514_j71683004171208_1_alg».proof.Proof.Layer1
import proofs.«120514_j71683004171208_1_alg».proof.Proof.Layer2

set_option maxRecDepth 16384

noncomputable section

namespace Cert.Sage.Kernel

open Cert.KernelIdeal Cert.KernelIdeal.Gen Cert.KernelIdeal.Hand
open Idealize.ShloMosaic Idealize.ShloMosaic.TcCoe Idealize.SL.Sem

/-- The hidden table: the hidden layer of the neighbour mean of the node table and the node table. -/
def hidK (x : FVec Ideal S100000x128 .f32) (ei : (⟨S2x1600000, .i32⟩ : BufTy).Contents (Elt Ideal))
    (wl1 : FVec Ideal S128x64 .f32) (b1 : FVec Ideal S64 .f32) (wr1 : FVec Ideal S128x64 .f32) : FVec Ideal S100000x64 .f32 :=
  Sage.hidden (N := 100000) (K := 128) (M := 64) (mean128 (F := Ideal) ei x) x wl1 wr1 (shapeCast S1x64 b1 shapeCasts_S64_S1x64)

/-- The result table: the last layer of the neighbour mean of the hidden table and the hidden table. -/
def outK (x : FVec Ideal S100000x128 .f32) (ei : (⟨S2x1600000, .i32⟩ : BufTy).Contents (Elt Ideal))
    (wl1 : FVec Ideal S128x64 .f32) (b1 : FVec Ideal S64 .f32) (wr1 : FVec Ideal S128x64 .f32)
    (wl2 : FVec Ideal S64x40 .f32) (b2 : FVec Ideal S40 .f32) (wr2 : FVec Ideal S64x40 .f32) : FVec Ideal S100000x40 .f32 :=
  Sage.scores (N := 100000) (K := 64) (M := 40) (mean64 (F := Ideal) ei (hidK x ei wl1 b1 wr1)) (hidK x ei wl1 b1 wr1) wl2 wr2
    (shapeCast S1x40 b2 shapeCasts_S40_S1x40)

variable (m : (ℓ : Loc nD τ sig) → Buf (Elt Ideal) ℓ) (ρ : Dev nD → PrngReg)

/-- What the first region leaves in the hidden table. -/
theorem hidden_eq (c : Dev nD) : (dat0 (V1 m ρ) c).arrAt 5 cfg0.N
    = hidK (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  rw [Cert.Sage.Layer1.final (V1 m ρ) c, V1_mean m ρ c, V1_x m ρ c, V1_wl m ρ c, V1_wr m ρ c, V1_bias m ρ c]
  rfl

/-- What the second region leaves in the result table. -/
theorem result_eq (c : Dev nD) : W4 m ρ c (Proc.devRef .tc main_v40)
    = outK (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) := by
  rw [W4_out m ρ c, Cert.Sage.Layer2.final (V3 m ρ) c, V3_mean m ρ c, V3_hid m ρ c, V3_wl m ρ c, V3_wr m ρ c, V3_bias m ρ c,
    hidden_eq m ρ c]
  rfl

/-- Every weakly fair execution of the kernel program ends with the result table at outK of the arguments and the
    arguments as launched. -/
theorem run : θ_run defs (onTc (τ := τ) (main (F := Ideal))) ⟨m, fun _ => 0, ρ⟩ (fun r => ∀ c : Dev nD,
      r.2.mem ((c.tc : Thread nD τ).loc main_v40)
        = outK (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (Cert.KernelIdeal.GenP.run_named m ρ)

end Cert.Sage.Kernel

end
-- ==== Proof.RefOpsCut.lean ====
/- The operation list `ops` of Proof/RefOps.lean as three consecutive lists (operations 1 … 38, 39 … 69, 70 … 84), each
   operation's text copied unchanged, and the third list once more with every operation over typed references spelt as the
   plain operation over the same buffers (its function ascribed the buffers' contents types). Lists only: every fact
   about them is stated and proved in Proof/RefRunHand.lean. -/
import proofs.«120514_j71683004171208_1_alg».proof.Proof.RefOps

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 38: the first layer, to the hidden features %29. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_1 (constant S_ .f32 0x3F800000#32),
    unary main_cst_1 main_v14 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x128 ![0, 1] bcast_S100000x1_S100000x128_0_1 : (⟨S100000x1, .f32⟩ : BufTy).Contents (Elt F) → (⟨S100000x128, .f32⟩ : BufTy).Contents (Elt F)),
    binary main_v13 main_v21 main_v22 (Host.divf : (⟨S100000x128, .f32⟩ : BufTy).Contents (Elt F) → (⟨S100000x128, .f32⟩ : BufTy).Contents (Elt F) → (⟨S100000x128, .f32⟩ : BufTy).Contents (Elt F)),
    binary main_v22 main_arg2 main_v23 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    unary main_arg3 main_v24 (broadcastInDim S1x64 ![1] bcast_S64_S1x64_1 : (⟨S64, .f32⟩ : BufTy).Contents (Elt F) → (⟨S1x64, .f32⟩ : BufTy).Contents (Elt F)),
    unary main_v24 main_v25 (broadcastInDim S100000x64 ![0, 1] bcast_S1x64_S100000x64_0_1 : (⟨S1x64, .f32⟩ : BufTy).Contents (Elt F) → (⟨S100000x64, .f32⟩ : BufTy).Contents (Elt F)),
    binary main_v23 main_v25 main_v26 (addf : (⟨S100000x64, .f32⟩ : BufTy).Contents (Elt F) → (⟨S100000x64, .f32⟩ : BufTy).Contents (Elt F) → (⟨S100000x64, .f32⟩ : BufTy).Contents (Elt F)),
    binary main_arg0 main_arg4 main_v27 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    binary main_v26 main_v27 main_v28 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v28) (TRef.of (T := ⟨S100000x64, .f32⟩) main_call0_v0) (TRef.of (T := ⟨S100000x64, .f32⟩) main_v29) maximumf ]

/-- @main's operations 39 … 69: the second layer, to the logits %54. -/
abbrev opsB : List (HloOp τ sig (Elt F)) :=
  [ nullary main_c_4 (constantI S_ 32 0#32),
    unary main_c_4 main_v30 (broadcastInDim S1600000 ![] bcast_S_S1600000 : (⟨S_, .i32⟩ : BufTy).Contents (Elt F) → (⟨S1600000, .i32⟩ : BufTy).Contents (Elt F)),
    binary main_v1 main_v30 main_v31 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v32 (broadcastInDim S1600000 ![] bcast_S_S1600000 : (⟨S_, .i32⟩ : BufTy).Contents (Elt F) → (⟨S1600000, .i32⟩ : BufTy).Contents (Elt F)),
    binary main_v1 main_v32 main_v33 (addi : (⟨S1600000, .i32⟩ : BufTy).Contents (Elt F) → (⟨S1600000, .i32⟩ : BufTy).Contents (Elt F) → (⟨S1600000, .i32⟩ : BufTy).Contents (Elt F)),
    ternary main_v31 main_v33 main_v1 main_v34 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v34 main_v35 (broadcastInDim S1600000x1 ![0] bcast_S1600000_S1600000x1_0 : (⟨S1600000, .i32⟩ : BufTy).Contents (Elt F) → (⟨S1600000x1, .i32⟩ : BufTy).Contents (Elt F)),
    binary main_v29 main_v35 main_v36 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_6 (constant S_ .f32 0x00000000#32),
    unary main_cst_6 main_v37 (broadcastInDim S100000x64 ![] bcast_S_S100000x64 : (⟨S_, .f32⟩ : BufTy).Contents (Elt F) → (⟨S100000x64, .f32⟩ : BufTy).Contents (Elt F)),
    unary main_v3 main_v38 (broadcastInDim S1600000x1 ![0] bcast_S1600000_S1600000x1_0 : (⟨S1600000, .i32⟩ : BufTy).Contents (Elt F) → (⟨S1600000x1, .i32⟩ : BufTy).Contents (Elt F)),
    ternary main_v37 main_v38 main_v36 main_v39 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    nullary main_cst_7 (constant S_ .f32 0x3F800000#32),
    unary main_cst_7 main_v40 (broadcastInDim S1600000 ![] bcast_S_S1600000 : (⟨S_, .f32⟩ : BufTy).Contents (Elt F) → (⟨S1600000, .f32⟩ : BufTy).Contents (Elt F)),
    nullary main_cst_8 (constant S_ .f32 0x00000000#32),
    unary main_cst_8 main_v41 (broadcastInDim S100000 ![] bcast_S_S100000 : (⟨S_, .f32⟩ : BufTy).Contents (Elt F) → (⟨S100000, .f32⟩ : BufTy).Contents (Elt F)),
    unary main_v3 main_v42 (broadcastInDim S1600000x1 ![0] bcast_S1600000_S1600000x1_0 : (⟨S1600000, .i32⟩ : BufTy).Contents (Elt F) → (⟨S1600000x1, .i32⟩ : BufTy).Contents (Elt F)),
    ternary main_v41 main_v42 main_v40 main_v43 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_9 (constant S_ .f32 0x3F800000#32),
    unary main_cst_9 main_v44 (broadcastInDim S100000 ![] bcast_S_S100000 : (⟨S_, .f32⟩ : BufTy).Contents (Elt F) → (⟨S100000, .f32⟩ : BufTy).Contents (Elt F)),
    binary main_v43 main_v44 main_v45 (maximumf : (⟨S100000, .f32⟩ : BufTy).Contents (Elt F) → (⟨S100000, .f32⟩ : BufTy).Contents (Elt F) → (⟨S100000, .f32⟩ : BufTy).Contents (Elt F)),
    unary main_v45 main_v46 (broadcastInDim S100000x1 ![0] bcast_S100000_S100000x1_0 : (⟨S100000, .f32⟩ : BufTy).Contents (Elt F) → (⟨S100000x1, .f32⟩ : BufTy).Contents (Elt F)),
    unary main_v46 main_v47 (broadcastInDim S100000x64 ![0, 1] bcast_S100000x1_S100000x64_0_1 : (⟨S100000x1, .f32⟩ : BufTy).Contents (Elt F) → (⟨S100000x64, .f32⟩ : BufTy).Contents (Elt F)),
    binary main_v39 main_v47 main_v48 (Host.divf : (⟨S100000x64, .f32⟩ : BufTy).Contents (Elt F) → (⟨S100000x64, .f32⟩ : BufTy).Contents (Elt F) → (⟨S100000x64, .f32⟩ : BufTy).Contents (Elt F)),
    binary main_v48 main_arg5 main_v49 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_arg6 main_v50 (broadcastInDim S1x40 ![1] bcast_S40_S1x40_1 : (⟨S40, .f32⟩ : BufTy).Contents (Elt F) → (⟨S1x40, .f32⟩ : BufTy).Contents (Elt F)),
    unary main_v50 main_v51 (broadcastInDim S100000x40 ![0, 1] bcast_S1x40_S100000x40_0_1 : (⟨S1x40, .f32⟩ : BufTy).Contents (Elt F) → (⟨S100000x40, .f32⟩ : BufTy).Contents (Elt F)),
    binary main_v49 main_v51 main_v52 (addf : (⟨S100000x40, .f32⟩ : BufTy).Contents (Elt F) → (⟨S100000x40, .f32⟩ : BufTy).Contents (Elt F) → (⟨S100000x40, .f32⟩ : BufTy).Contents (Elt F)),
    binary main_v29 main_arg7 main_v53 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    binary main_v52 main_v53 main_v54 (addf : (⟨S100000x40, .f32⟩ : BufTy).Contents (Elt F) → (⟨S100000x40, .f32⟩ : BufTy).Contents (Elt F) → (⟨S100000x40, .f32⟩ : BufTy).Contents (Elt F)) ]

/-- @main's operations 70 … 84: the inlined @log_softmax. -/
abbrev opsC : List (HloOp τ sig (Elt F)) :=
  [ TRef.nullary (TRef.of (T := ⟨S_, .f32⟩) main_call1_cst) (constant S_ .f32 0xFF800000#32),
    TRef.binary (TRef.of (T := ⟨S100000x40, .f32⟩) main_v54) (TRef.of (T := ⟨S_, .f32⟩) main_call1_cst) (TRef.of (T := ⟨S100000, .f32⟩) main_call1_v0) (fun x v => Host.reduce FloatOps.maximumf x v reducesTo_S100000x40_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v54) (TRef.of (T := ⟨S100000x40, .f32⟩) main_call1_v4) (TRef.of (T := ⟨S100000x40, .f32⟩) main_call1_v5) subf,
    TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v55) subf ]

/-- Operations 70 … 84 over the buffers themselves. -/
abbrev opsC' : List (HloOp τ sig (Elt F)) :=
  [ nullary main_call1_cst (constant S_ .f32 0xFF800000#32),
    binary main_v54 main_call1_cst main_call1_v0 ((fun x v => Host.reduce FloatOps.maximumf x v reducesTo_S100000x40_S100000_d1 h_S_) : (⟨S100000x40, .f32⟩ : BufTy).Contents (Elt F) → (⟨S_, .f32⟩ : BufTy).Contents (Elt F) → (⟨S100000, .f32⟩ : BufTy).Contents (Elt F)),
    nullary main_call1_cst_0 (constant S_ .f32 0xFF800000#32),
    unary main_call1_cst_0 main_call1_v1 (broadcastInDim S100000 ![] bcast_S_S100000 : (⟨S_, .f32⟩ : BufTy).Contents (Elt F) → (⟨S100000, .f32⟩ : BufTy).Contents (Elt F)),
    binary main_call1_v1 main_call1_v0 main_call1_v2 (maximumf : (⟨S100000, .f32⟩ : BufTy).Contents (Elt F) → (⟨S100000, .f32⟩ : BufTy).Contents (Elt F) → (⟨S100000, .f32⟩ : BufTy).Contents (Elt F)),
    unary main_call1_v2 main_call1_v3 (broadcastInDim S100000x1 ![0] bcast_S100000_S100000x1_0 : (⟨S100000, .f32⟩ : BufTy).Contents (Elt F) → (⟨S100000x1, .f32⟩ : BufTy).Contents (Elt F)),
    unary main_call1_v3 main_call1_v4 (broadcastInDim S100000x40 ![0, 1] bcast_S100000x1_S100000x40_0_1 : (⟨S100000x1, .f32⟩ : BufTy).Contents (Elt F) → (⟨S100000x40, .f32⟩ : BufTy).Contents (Elt F)),
    binary main_v54 main_call1_v4 main_call1_v5 (subf : (⟨S100000x40, .f32⟩ : BufTy).Contents (Elt F) → (⟨S100000x40, .f32⟩ : BufTy).Contents (Elt F) → (⟨S100000x40, .f32⟩ : BufTy).Contents (Elt F)),
    unary main_call1_v5 main_call1_v6 (Host.exp : (⟨S100000x40, .f32⟩ : BufTy).Contents (Elt F) → (⟨S100000x40, .f32⟩ : BufTy).Contents (Elt F)),
    nullary main_call1_cst_1 (constant S_ .f32 0x00000000#32),
    binary main_call1_v6 main_call1_cst_1 main_call1_v7 ((fun x v => Host.reduceAdd x v reducesTo_S100000x40_S100000_d1 h_S_) : (⟨S100000x40, .f32⟩ : BufTy).Contents (Elt F) → (⟨S_, .f32⟩ : BufTy).Contents (Elt F) → (⟨S100000, .f32⟩ : BufTy).Contents (Elt F)),
    unary main_call1_v7 main_call1_v8 (broadcastInDim S100000x1 ![0] bcast_S100000_S100000x1_0 : (⟨S100000, .f32⟩ : BufTy).Contents (Elt F) → (⟨S100000x1, .f32⟩ : BufTy).Contents (Elt F)),
    unary main_call1_v8 main_call1_v9 (Host.log : (⟨S100000x1, .f32⟩ : BufTy).Contents (Elt F) → (⟨S100000x1, .f32⟩ : BufTy).Contents (Elt F)),
    unary main_call1_v9 main_call1_v10 (broadcastInDim S100000x40 ![0, 1] bcast_S100000x1_S100000x40_0_1 : (⟨S100000x1, .f32⟩ : BufTy).Contents (Elt F) → (⟨S100000x40, .f32⟩ : BufTy).Contents (Elt F)),
    binary main_call1_v5 main_call1_v10 main_v55 (subf : (⟨S100000x40, .f32⟩ : BufTy).Contents (Elt F) → (⟨S100000x40, .f32⟩ : BufTy).Contents (Elt F) → (⟨S100000x40, .f32⟩ : BufTy).Contents (Elt F)) ]

end Cert.ReferenceIdeal.Hand

end
-- ==== Proof.LibTypedOps.lean ====
/-
  A host operation written over TYPED references (a buffer together with the equation "its type is T") is the same
  operation written over the buffers themselves: the typed form only transports the operation's values along those
  equations, and when an equation is `rfl` the transport is the identity. Stated for the four arities a straight-line
  callee uses; with them a list of typed operations is rewritten, operation by operation, to the plain list, whose
  results can then be read without any transport in the way.
-/
import Idealize.ShloMosaic.Lib.StableHlo

noncomputable section

namespace Idealize.ShloMosaic.StableHlo.TRef

open Idealize.ShloMosaic Idealize.ShloMosaic.StableHlo

variable {τ : Topo} {sig : RefSig} {Val : EltTy → Type}

/-- A typed reference whose type equation is `rfl`. -/
abbrev plain (r : Ref sig .tc) (hd : r.space ≠ .host) (hu : r.isScoped = false) : TRef sig r.ty := ⟨r, rfl, hd, hu⟩

theorem nullary_plain (y : Ref sig .tc) (hd hu) (v : y.ty.Contents Val) :
    TRef.nullary (τ := τ) (plain y hd hu) v = StableHlo.nullary y v (plain y hd hu).dev := rfl

theorem unary_plain (x y : Ref sig .tc) (hdx hux hdy huy) (f : x.ty.Contents Val → y.ty.Contents Val) :
    TRef.unary (τ := τ) (plain x hdx hux) (plain y hdy huy) f
      = StableHlo.unary x y f (plain x hdx hux).dev (plain y hdy huy).dev := rfl

theorem binary_plain (a b y : Ref sig .tc) (hda hua hdb hub hdy huy)
    (f : a.ty.Contents Val → b.ty.Contents Val → y.ty.Contents Val) :
    TRef.binary (τ := τ) (plain a hda hua) (plain b hdb hub) (plain y hdy huy) f
      = StableHlo.binary a b y f (plain a hda hua).dev (plain b hdb hub).dev (plain y hdy huy).dev := rfl

theorem ternary_plain (c a b y : Ref sig .tc) (hdc huc hda hua hdb hub hdy huy)
    (f : c.ty.Contents Val → a.ty.Contents Val → b.ty.Contents Val → y.ty.Contents Val) :
    TRef.ternary (τ := τ) (plain c hdc huc) (plain a hda hua) (plain b hdb hub) (plain y hdy huy) f
      = StableHlo.ternary c a b y f (plain c hdc huc).dev (plain a hda hua).dev (plain b hdb hub).dev (plain y hdy huy).dev := rfl

end Idealize.ShloMosaic.StableHlo.TRef

end
-- ==== Proof.RefRunHand.lean ====
/-
  The reference program's run, stated by stretches. Its 84 host operations are read in three consecutive stretches — the
  first layer up to the hidden features, the second layer up to the logits, and the row-wise log-softmax — each from
  arbitrary buffer contents, so that a later stretch reads what an earlier one left as an atom and never as its expanded
  term; every sub-term that recurs in the program (the two index chains, the degree, the two aggregations, the hidden
  layer) is a definition used wherever it recurs.
-/
import proofs.«120514_j71683004171208_1_alg».proof.Proof.RefOpsCut
import proofs.«120514_j71683004171208_1_alg».proof.Proof.LibTypedOps

noncomputable section

namespace Cert.ReferenceIdeal.Hand

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-! ## The reference's values, named once

Each definition is one recurring sub-term of the printed program, over the operands it reads. -/

/-- %0, %1: the edge list's first row (the sources), as a vector. -/
def row0 (ei : (⟨S2x1600000, .i32⟩ : BufTy).Contents (Elt F)) : (⟨S1600000, .i32⟩ : BufTy).Contents (Elt F) :=
  shapeCast S1600000 (extractStridedSlice S1x1600000 ![0, 0] ei slices_S2x1600000_S1x1600000_0_0) shapeCasts_S1x1600000_S1600000

/-- %2, %3: the edge list's second row (the destinations), as a vector. -/
def row1 (ei : (⟨S2x1600000, .i32⟩ : BufTy).Contents (Elt F)) : (⟨S1600000, .i32⟩ : BufTy).Contents (Elt F) :=
  shapeCast S1600000 (extractStridedSlice S1x1600000 ![1, 0] ei slices_S2x1600000_S1x1600000_1_0) shapeCasts_S1x1600000_S1600000

/-- %c, %4 … %9 over a vector of indices: a negative index wrapped by the row count, then the vector as a column. -/
def wrapIdx (v : (⟨S1600000, .i32⟩ : BufTy).Contents (Elt F)) : (⟨S1600000x1, .i32⟩ : BufTy).Contents (Elt F) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100000#32))) v)

/-- %12 over a vector of indices: the vector as a column. -/
def colIdx (v : (⟨S1600000, .i32⟩ : BufTy).Contents (Elt F)) : (⟨S1600000x1, .i32⟩ : BufTy).Contents (Elt F) :=
  broadcastInDim S1600000x1 ![0] bcast_S1600000_S1600000x1_0 v

/-- %0, %1, %c, %4 … %9 (and again %30 … %35): the gather's start indices, the sources wrapped. -/
def srcIdx (ei : (⟨S2x1600000, .i32⟩ : BufTy).Contents (Elt F)) : (⟨S1600000x1, .i32⟩ : BufTy).Contents (Elt F) :=
  broadcastInDim S1600000x1 ![0] bcast_S1600000_S1600000x1_0
    (select
      (cmpi .slt (shapeCast S1600000 (extractStridedSlice S1x1600000 ![0, 0] ei slices_S2x1600000_S1x1600000_0_0) shapeCasts_S1x1600000_S1600000)
        (broadcastInDim S1600000 ![] bcast_S_S1600000 (constantI S_ 32 0#32)))
      (addi (shapeCast S1600000 (extractStridedSlice S1x1600000 ![0, 0] ei slices_S2x1600000_S1x1600000_0_0) shapeCasts_S1x1600000_S1600000)
        (broadcastInDim S1600000 ![] bcast_S_S1600000 (constantI S_ 32 100000#32)))
      (shapeCast S1600000 (extractStridedSlice S1x1600000 ![0, 0] ei slices_S2x1600000_S1x1600000_0_0) shapeCasts_S1x1600000_S1600000))

/-- %2, %3, %12 (= %16 = %38 = %42): the scatters' indices, the destinations as a column. -/
def dstIdx (ei : (⟨S2x1600000, .i32⟩ : BufTy).Contents (Elt F)) : (⟨S1600000x1, .i32⟩ : BufTy).Contents (Elt F) :=
  broadcastInDim S1600000x1 ![0] bcast_S1600000_S1600000x1_0
    (shapeCast S1600000 (extractStridedSlice S1x1600000 ![1, 0] ei slices_S2x1600000_S1x1600000_1_0) shapeCasts_S1x1600000_S1600000)

theorem srcIdx_eq (ei : (⟨S2x1600000, .i32⟩ : BufTy).Contents (Elt F)) : srcIdx ei = wrapIdx (row0 ei) := rfl
theorem dstIdx_eq (ei : (⟨S2x1600000, .i32⟩ : BufTy).Contents (Elt F)) : dstIdx ei = colIdx (row1 ei) := rfl

/-- %14 … %19 over the destinations' column: each node's count of incoming edges, at least one. -/
def degOf (d : (⟨S1600000x1, .i32⟩ : BufTy).Contents (Elt F)) : FVec F S100000 .f32 :=
  maximumf
    (Host.scatterAdd scatter_S100000_S1600000x1_S1600000_n_0_0_1
      (broadcastInDim S100000 ![] bcast_S_S100000 (constant S_ .f32 0x00000000#32)) d
      (broadcastInDim S1600000 ![] bcast_S_S1600000 (constant S_ .f32 0x3F800000#32)))
    (broadcastInDim S100000 ![] bcast_S_S100000 (constant S_ .f32 0x3F800000#32))

/-- %14 … %19 (= %40 … %45): each node's count of incoming edges, at least one. -/
def deg (ei : (⟨S2x1600000, .i32⟩ : BufTy).Contents (Elt F)) : FVec F S100000 .f32 :=
  maximumf
    (Host.scatterAdd scatter_S100000_S1600000x1_S1600000_n_0_0_1
      (broadcastInDim S100000 ![] bcast_S_S100000 (constant S_ .f32 0x00000000#32)) (dstIdx ei)
      (broadcastInDim S1600000 ![] bcast_S_S1600000 (constant S_ .f32 0x3F800000#32)))
    (broadcastInDim S100000 ![] bcast_S_S100000 (constant S_ .f32 0x3F800000#32))

theorem deg_eq (ei : (⟨S2x1600000, .i32⟩ : BufTy).Contents (Elt F)) : deg ei = degOf (colIdx (row1 ei)) := rfl

/-- %10, %11, %13: the sum, per destination node, of the source nodes' rows of a 128-column feature array. -/
def agg128 (ei : (⟨S2x1600000, .i32⟩ : BufTy).Contents (Elt F)) (feat : FVec F S100000x128 .f32) : FVec F S100000x128 .f32 :=
  Host.scatterAdd scatter_S100000x128_S1600000x1_S1600000x128_1_0_0_1
    (broadcastInDim S100000x128 ![] bcast_S_S100000x128 (constant S_ .f32 0x00000000#32)) (dstIdx ei)
    (Host.gather gather_S100000x128_S1600000x1_S1600000x128_1_0_n_n_0_1_1128 feat (srcIdx ei))

/-- %36, %37, %39: the same at 64 columns. -/
def agg64 (ei : (⟨S2x1600000, .i32⟩ : BufTy).Contents (Elt F)) (feat : FVec F S100000x64 .f32) : FVec F S100000x64 .f32 :=
  Host.scatterAdd scatter_S100000x64_S1600000x1_S1600000x64_1_0_0_1
    (broadcastInDim S100000x64 ![] bcast_S_S100000x64 (constant S_ .f32 0x00000000#32)) (dstIdx ei)
    (Host.gather gather_S100000x64_S1600000x1_S1600000x64_1_0_n_n_0_1_164 feat (srcIdx ei))

/-- %20 … %29: the hidden layer, mean aggregation and the two products, the bias added, clamped below at zero. -/
def hid (x : FVec F S100000x128 .f32) (ei : (⟨S2x1600000, .i32⟩ : BufTy).Contents (Elt F))
    (Wl1 : FVec F S128x64 .f32) (b1 : FVec F S64 .f32) (Wr1 : FVec F S128x64 .f32) : FVec F S100000x64 .f32 :=
  maximumf
    (addf
      (addf
        (Host.dotGeneral dot_S100000x128_S128x64_S100000x64_1_0_0_1_n_n none
          (Host.divf (agg128 ei x)
            (broadcastInDim S100000x128 ![0, 1] bcast_S100000x1_S100000x128_0_1
              (broadcastInDim S100000x1 ![0] bcast_S100000_S100000x1_0 (deg ei))))
          Wl1)
        (broadcastInDim S100000x64 ![0, 1] bcast_S1x64_S100000x64_0_1 (broadcastInDim S1x64 ![1] bcast_S64_S1x64_1 b1)))
      (Host.dotGeneral dot_S100000x128_S128x64_S100000x64_1_0_0_1_n_n none x Wr1))
    (broadcastInDim S100000x64 ![] bcast_S_S100000x64 (constant S_ .f32 0x00000000#32))

/-- %46 … %54: the output layer before the normalisation. -/
def logits (h : FVec F S100000x64 .f32) (ei : (⟨S2x1600000, .i32⟩ : BufTy).Contents (Elt F))
    (Wl2 : FVec F S64x40 .f32) (b2 : FVec F S40 .f32) (Wr2 : FVec F S64x40 .f32) : FVec F S100000x40 .f32 :=
  addf
    (addf
      (Host.dotGeneral dot_S100000x64_S64x40_S100000x40_1_0_0_1_n_n none
        (Host.divf (agg64 ei h)
          (broadcastInDim S100000x64 ![0, 1] bcast_S100000x1_S100000x64_0_1
            (broadcastInDim S100000x1 ![0] bcast_S100000_S100000x1_0 (deg ei))))
        Wl2)
      (broadcastInDim S100000x40 ![0, 1] bcast_S1x40_S100000x40_0_1 (broadcastInDim S1x40 ![1] bcast_S40_S1x40_1 b2)))
    (Host.dotGeneral dot_S100000x64_S64x40_S100000x40_1_0_0_1_n_n none h Wr2)

/-- The row maximum of @log_softmax (its %0 … %4), spread back over the columns. -/
def lsmMax (Z : FVec F S100000x40 .f32) : FVec F S100000x40 .f32 :=
  broadcastInDim S100000x40 ![0, 1] bcast_S100000x1_S100000x40_0_1
    (broadcastInDim S100000x1 ![0] bcast_S100000_S100000x1_0
      (maximumf (broadcastInDim S100000 ![] bcast_S_S100000 (constant S_ .f32 0xFF800000#32))
        (Host.reduce FloatOps.maximumf Z (constant S_ .f32 0xFF800000#32) reducesTo_S100000x40_S100000_d1 h_S_)))

/-- @log_softmax's %5: the logits less their row maximum. -/
def lsmShift (Z : FVec F S100000x40 .f32) : FVec F S100000x40 .f32 := subf Z (lsmMax Z)

/-- The inlined @log_softmax, operation by operation. -/
def logSoftmax (Z : FVec F S100000x40 .f32) : FVec F S100000x40 .f32 :=
  subf (lsmShift Z)
    (broadcastInDim S100000x40 ![0, 1] bcast_S100000x1_S100000x40_0_1
      (Host.log
        (broadcastInDim S100000x1 ![0] bcast_S100000_S100000x1_0
          (Host.reduceAdd (Host.exp (lsmShift Z)) (constant S_ .f32 0x00000000#32) reducesTo_S100000x40_S100000_d1 h_S_))))

/-- @main's result %55 as a function of its eight arguments. -/
def out (x : FVec F S100000x128 .f32) (ei : (⟨S2x1600000, .i32⟩ : BufTy).Contents (Elt F))
    (Wl1 : FVec F S128x64 .f32) (b1 : FVec F S64 .f32) (Wr1 : FVec F S128x64 .f32)
    (Wl2 : FVec F S64x40 .f32) (b2 : FVec F S40 .f32) (Wr2 : FVec F S64x40 .f32) : FVec F S100000x40 .f32 :=
  logSoftmax (logits (hid x ei Wl1 b1 Wr1) ei Wl2 b2 Wr2)

/-! ## The operation list in three stretches -/

theorem ops_eq : (ops : List (HloOp τ sig (Elt F))) = opsA ++ (opsB ++ opsC) := rfl

/-- The contents after two lines in a row are the second line's after the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-! ### The first stretch, from any contents -/

theorem afterA_v1 (V : Valuation τ sig (Elt F)) :
    after opsA V (Proc.devRef .tc main_v1) = row0 (V (Proc.devRef .tc main_arg1)) := by
  after_results_simp
  rfl

theorem afterA_v3 (V : Valuation τ sig (Elt F)) :
    after opsA V (Proc.devRef .tc main_v3) = row1 (V (Proc.devRef .tc main_arg1)) := by
  after_results_simp
  rfl

theorem afterA_v29 (V : Valuation τ sig (Elt F)) :
    after opsA V (Proc.devRef .tc main_v29)
      = hid (V (Proc.devRef .tc main_arg0)) (V (Proc.devRef .tc main_arg1)) (V (Proc.devRef .tc main_arg2))
          (V (Proc.devRef .tc main_arg3)) (V (Proc.devRef .tc main_arg4)) := by
  after_results_simp
  rfl

theorem afterA_arg0 (V : Valuation τ sig (Elt F)) :
    after opsA V (Proc.devRef .tc main_arg0) = V (Proc.devRef .tc main_arg0) := by
  after_results_simp
theorem afterA_arg1 (V : Valuation τ sig (Elt F)) :
    after opsA V (Proc.devRef .tc main_arg1) = V (Proc.devRef .tc main_arg1) := by
  after_results_simp
theorem afterA_arg2 (V : Valuation τ sig (Elt F)) :
    after opsA V (Proc.devRef .tc main_arg2) = V (Proc.devRef .tc main_arg2) := by
  after_results_simp
theorem afterA_arg3 (V : Valuation τ sig (Elt F)) :
    after opsA V (Proc.devRef .tc main_arg3) = V (Proc.devRef .tc main_arg3) := by
  after_results_simp
theorem afterA_arg4 (V : Valuation τ sig (Elt F)) :
    after opsA V (Proc.devRef .tc main_arg4) = V (Proc.devRef .tc main_arg4) := by
  after_results_simp
theorem afterA_arg5 (V : Valuation τ sig (Elt F)) :
    after opsA V (Proc.devRef .tc main_arg5) = V (Proc.devRef .tc main_arg5) := by
  after_results_simp
theorem afterA_arg6 (V : Valuation τ sig (Elt F)) :
    after opsA V (Proc.devRef .tc main_arg6) = V (Proc.devRef .tc main_arg6) := by
  after_results_simp
theorem afterA_arg7 (V : Valuation τ sig (Elt F)) :
    after opsA V (Proc.devRef .tc main_arg7) = V (Proc.devRef .tc main_arg7) := by
  after_results_simp

/-! ### The second stretch, from any contents: the hidden features and the two index rows are read, not recomputed -/

/-- %30 … %54 over the hidden features and the edge list's two rows. -/
def logitsOf (h : FVec F S100000x64 .f32) (v1 v3 : (⟨S1600000, .i32⟩ : BufTy).Contents (Elt F))
    (Wl2 : FVec F S64x40 .f32) (b2 : FVec F S40 .f32) (Wr2 : FVec F S64x40 .f32) : FVec F S100000x40 .f32 :=
  addf
    (addf
      (Host.dotGeneral dot_S100000x64_S64x40_S100000x40_1_0_0_1_n_n none
        (Host.divf
          (Host.scatterAdd scatter_S100000x64_S1600000x1_S1600000x64_1_0_0_1
            (broadcastInDim S100000x64 ![] bcast_S_S100000x64 (constant S_ .f32 0x00000000#32)) (colIdx v3)
            (Host.gather gather_S100000x64_S1600000x1_S1600000x64_1_0_n_n_0_1_164 h (wrapIdx v1)))
          (broadcastInDim S100000x64 ![0, 1] bcast_S100000x1_S100000x64_0_1
            (broadcastInDim S100000x1 ![0] bcast_S100000_S100000x1_0 (degOf (colIdx v3)))))
        Wl2)
      (broadcastInDim S100000x40 ![0, 1] bcast_S1x40_S100000x40_0_1 (broadcastInDim S1x40 ![1] bcast_S40_S1x40_1 b2)))
    (Host.dotGeneral dot_S100000x64_S64x40_S100000x40_1_0_0_1_n_n none h Wr2)

theorem logits_eq (h : FVec F S100000x64 .f32) (ei : (⟨S2x1600000, .i32⟩ : BufTy).Contents (Elt F))
    (Wl2 : FVec F S64x40 .f32) (b2 : FVec F S40 .f32) (Wr2 : FVec F S64x40 .f32) :
    logits h ei Wl2 b2 Wr2 = logitsOf h (row0 ei) (row1 ei) Wl2 b2 Wr2 := rfl

theorem afterB_v54 (W : Valuation τ sig (Elt F)) :
    after opsB W (Proc.devRef .tc main_v54)
      = logitsOf (W (Proc.devRef .tc main_v29)) (W (Proc.devRef .tc main_v1)) (W (Proc.devRef .tc main_v3))
          (W (Proc.devRef .tc main_arg5)) (W (Proc.devRef .tc main_arg6)) (W (Proc.devRef .tc main_arg7)) := by
  after_results_simp
  rfl

theorem afterB_arg0 (W : Valuation τ sig (Elt F)) :
    after opsB W (Proc.devRef .tc main_arg0) = W (Proc.devRef .tc main_arg0) := by
  after_results_simp
theorem afterB_arg1 (W : Valuation τ sig (Elt F)) :
    after opsB W (Proc.devRef .tc main_arg1) = W (Proc.devRef .tc main_arg1) := by
  after_results_simp
theorem afterB_arg2 (W : Valuation τ sig (Elt F)) :
    after opsB W (Proc.devRef .tc main_arg2) = W (Proc.devRef .tc main_arg2) := by
  after_results_simp
theorem afterB_arg3 (W : Valuation τ sig (Elt F)) :
    after opsB W (Proc.devRef .tc main_arg3) = W (Proc.devRef .tc main_arg3) := by
  after_results_simp
theorem afterB_arg4 (W : Valuation τ sig (Elt F)) :
    after opsB W (Proc.devRef .tc main_arg4) = W (Proc.devRef .tc main_arg4) := by
  after_results_simp
theorem afterB_arg5 (W : Valuation τ sig (Elt F)) :
    after opsB W (Proc.devRef .tc main_arg5) = W (Proc.devRef .tc main_arg5) := by
  after_results_simp
theorem afterB_arg6 (W : Valuation τ sig (Elt F)) :
    after opsB W (Proc.devRef .tc main_arg6) = W (Proc.devRef .tc main_arg6) := by
  after_results_simp
theorem afterB_arg7 (W : Valuation τ sig (Elt F)) :
    after opsB W (Proc.devRef .tc main_arg7) = W (Proc.devRef .tc main_arg7) := by
  after_results_simp

/-! ### The third stretch, from any contents: the logits are read

Its operations are the callee's, over typed references; each is the plain operation over the same buffers, and the
stretch is read in that spelling. -/

theorem cons_congr {α : Type _} {a b : α} {l m : List α} (h : a = b) (t : l = m) : a :: l = b :: m := by rw [h, t]

theorem opsC_eq : (opsC : List (HloOp τ sig (Elt F))) = opsC' :=
  cons_congr (TRef.nullary_plain ..) <|
  cons_congr (TRef.binary_plain ..) <|
  cons_congr (TRef.nullary_plain ..) <|
  cons_congr (TRef.unary_plain ..) <|
  cons_congr (TRef.binary_plain ..) <|
  cons_congr (TRef.unary_plain ..) <|
  cons_congr (TRef.unary_plain ..) <|
  cons_congr (TRef.binary_plain ..) <|
  cons_congr (TRef.unary_plain ..) <|
  cons_congr (TRef.nullary_plain ..) <|
  cons_congr (TRef.binary_plain ..) <|
  cons_congr (TRef.unary_plain ..) <|
  cons_congr (TRef.unary_plain ..) <|
  cons_congr (TRef.unary_plain ..) <|
  cons_congr (TRef.binary_plain ..) <|
  rfl

theorem afterC_v55 (U : Valuation τ sig (Elt F)) :
    after opsC U (Proc.devRef .tc main_v55) = logSoftmax (U (Proc.devRef .tc main_v54)) := by
  rw [opsC_eq]
  after_results_simp
  rfl

theorem afterC_arg0 (U : Valuation τ sig (Elt F)) :
    after opsC U (Proc.devRef .tc main_arg0) = U (Proc.devRef .tc main_arg0) := by
  rw [opsC_eq]
  after_results_simp
theorem afterC_arg1 (U : Valuation τ sig (Elt F)) :
    after opsC U (Proc.devRef .tc main_arg1) = U (Proc.devRef .tc main_arg1) := by
  rw [opsC_eq]
  after_results_simp
theorem afterC_arg2 (U : Valuation τ sig (Elt F)) :
    after opsC U (Proc.devRef .tc main_arg2) = U (Proc.devRef .tc main_arg2) := by
  rw [opsC_eq]
  after_results_simp
theorem afterC_arg3 (U : Valuation τ sig (Elt F)) :
    after opsC U (Proc.devRef .tc main_arg3) = U (Proc.devRef .tc main_arg3) := by
  rw [opsC_eq]
  after_results_simp
theorem afterC_arg4 (U : Valuation τ sig (Elt F)) :
    after opsC U (Proc.devRef .tc main_arg4) = U (Proc.devRef .tc main_arg4) := by
  rw [opsC_eq]
  after_results_simp
theorem afterC_arg5 (U : Valuation τ sig (Elt F)) :
    after opsC U (Proc.devRef .tc main_arg5) = U (Proc.devRef .tc main_arg5) := by
  rw [opsC_eq]
  after_results_simp
theorem afterC_arg6 (U : Valuation τ sig (Elt F)) :
    after opsC U (Proc.devRef .tc main_arg6) = U (Proc.devRef .tc main_arg6) := by
  rw [opsC_eq]
  after_results_simp
theorem afterC_arg7 (U : Valuation τ sig (Elt F)) :
    after opsC U (Proc.devRef .tc main_arg7) = U (Proc.devRef .tc main_arg7) := by
  rw [opsC_eq]
  after_results_simp

/-! ## The whole line -/

theorem after_v55 (V : Valuation τ sig (Elt F)) :
    after ops V (Proc.devRef .tc main_v55)
      = out (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) := by
  rw [ops_eq, after_app, after_app, afterC_v55, afterB_v54,
    afterA_v29, afterA_v1, afterA_v3, afterA_arg5, afterA_arg6, afterA_arg7, ← logits_eq]
  rfl

theorem after_arg0 (V : Valuation τ sig (Elt F)) :
    after ops V (Proc.devRef .tc main_arg0) = V (Proc.devRef .tc main_arg0) := by
  rw [ops_eq, after_app, after_app, afterC_arg0, afterB_arg0, afterA_arg0]
theorem after_arg1 (V : Valuation τ sig (Elt F)) :
    after ops V (Proc.devRef .tc main_arg1) = V (Proc.devRef .tc main_arg1) := by
  rw [ops_eq, after_app, after_app, afterC_arg1, afterB_arg1, afterA_arg1]
theorem after_arg2 (V : Valuation τ sig (Elt F)) :
    after ops V (Proc.devRef .tc main_arg2) = V (Proc.devRef .tc main_arg2) := by
  rw [ops_eq, after_app, after_app, afterC_arg2, afterB_arg2, afterA_arg2]
theorem after_arg3 (V : Valuation τ sig (Elt F)) :
    after ops V (Proc.devRef .tc main_arg3) = V (Proc.devRef .tc main_arg3) := by
  rw [ops_eq, after_app, after_app, afterC_arg3, afterB_arg3, afterA_arg3]
theorem after_arg4 (V : Valuation τ sig (Elt F)) :
    after ops V (Proc.devRef .tc main_arg4) = V (Proc.devRef .tc main_arg4) := by
  rw [ops_eq, after_app, after_app, afterC_arg4, afterB_arg4, afterA_arg4]
theorem after_arg5 (V : Valuation τ sig (Elt F)) :
    after ops V (Proc.devRef .tc main_arg5) = V (Proc.devRef .tc main_arg5) := by
  rw [ops_eq, after_app, after_app, afterC_arg5, afterB_arg5, afterA_arg5]
theorem after_arg6 (V : Valuation τ sig (Elt F)) :
    after ops V (Proc.devRef .tc main_arg6) = V (Proc.devRef .tc main_arg6) := by
  rw [ops_eq, after_app, after_app, afterC_arg6, afterB_arg6, afterA_arg6]
theorem after_arg7 (V : Valuation τ sig (Elt F)) :
    after ops V (Proc.devRef .tc main_arg7) = V (Proc.devRef .tc main_arg7) := by
  rw [ops_eq, after_app, after_app, afterC_arg7, afterB_arg7, afterA_arg7]

/-! ## The run -/

/-- On every device, for any float values, from any memory with zero counters: every weakly fair execution of
    @main terminates with its result %55 at `out` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55)
          = out (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v55).trans (after_v55 (launchContents m c)),
      (h c main_arg0).trans (after_arg0 (launchContents m c)),
      (h c main_arg1).trans (after_arg1 (launchContents m c)),
      (h c main_arg2).trans (after_arg2 (launchContents m c)),
      (h c main_arg3).trans (after_arg3 (launchContents m c)),
      (h c main_arg4).trans (after_arg4 (launchContents m c)),
      (h c main_arg5).trans (after_arg5 (launchContents m c)),
      (h c main_arg6).trans (after_arg6 (launchContents m c)),
      (h c main_arg7).trans (after_arg7 (launchContents m c))⟩)
    (run_seq scopedRefs_eq scopedSems_eq defs main (fun _ => ops) main_eq (fun _ => ops_sub) m ρ)

end Cert.ReferenceIdeal.Hand

end
-- ==== Proof.LibLayout.lean ====
/-
  Two ways to write a vector as a matrix with one unit axis. A vector of n entries as a 1 x n row is the same array
  whether it is reshaped or broadcast along axis 1: entry (0, j) is entry j. As an n x 1 column it is the same whether
  reshaped or broadcast along axis 0: entry (i, 0) is entry i. In each case the row-major position of the matrix
  entry is the vector's index, because the other axis has length 1.
-/
import Idealize.ShloMosaic.Lib.Pipeline.Value
import Idealize.ShloMosaic.Lib.ValueIdx

namespace Cert.Proof.Layout

open Idealize.ShloMosaic Idealize.ShloMosaic.ValueIdx

variable {α : Type}

/-- A vector of n entries as a 1 x n row: the reshape is the broadcast along axis 1. -/
theorem reshape_row_eq_broadcastInDim {n : Nat} (x : (⟨1, ![n]⟩ : Shape).Idx → α)
    (h : (⟨1, ![n]⟩ : Shape).ShapeCasts ⟨2, ![1, n]⟩)
    (hd : (⟨1, ![n]⟩ : Shape).BroadcastsInDim ⟨2, ![1, n]⟩ ![1]) :
    shapeCast ⟨2, ![1, n]⟩ x h = broadcastInDim ⟨2, ![1, n]⟩ ![1] hd x := by
  funext i
  have h0 : (i 0).val < 1 := (i 0).isLt
  have h1 : (i 1).val < n := (i 1).isLt
  have e2 := shapeCast_apply x h i (ix1 (i 1 : Fin n)) (by
    rw [Shape.rowMajor_val_two, Shape.rowMajor_val_one]
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · omega
      · rfl)
  exact e2.trans e3.symm

/-- A vector of n entries as an n x 1 column: the reshape is the broadcast along axis 0. -/
theorem reshape_col_eq_broadcastInDim {n : Nat} (x : (⟨1, ![n]⟩ : Shape).Idx → α)
    (h : (⟨1, ![n]⟩ : Shape).ShapeCasts ⟨2, ![n, 1]⟩)
    (hd : (⟨1, ![n]⟩ : Shape).BroadcastsInDim ⟨2, ![n, 1]⟩ ![0]) :
    shapeCast ⟨2, ![n, 1]⟩ x h = broadcastInDim ⟨2, ![n, 1]⟩ ![0] hd x := by
  funext i
  have h0 : (i 0).val < n := (i 0).isLt
  have h1 : (i 1).val < 1 := (i 1).isLt
  have e2 := shapeCast_apply x h i (ix1 (i 0 : Fin n)) (by
    rw [Shape.rowMajor_val_two, Shape.rowMajor_val_one]
    show (i 0).val = (i 0).val * 1 + (i 1).val
    omega)
  have e3 := broadcastInDim_apply ![0] hd x i (ix1 (i 0 : Fin n)) (by
    intro a
    match a with
    | ⟨0, _⟩ =>
      show (i 0).val = if n = 1 then 0 else (i 0).val
      split
      · omega
      · rfl)
  exact e2.trans e3.symm

end Cert.Proof.Layout
-- ==== Proof.Bridge.lean ====
/-
  The two programs compute one function. The reference forms, on whole tables, the neighbour sum divided by the clamped
  count, the two contractions and the bias, the maximum with zero, the same once more on the hidden table, and the
  row-wise log-softmax; the kernel program forms the neighbour sum times one over the clamped count and works the
  layers in blocks of rows. Both neighbour sums and both counts are the same operations on the same arguments, written
  under each program's own names; the product with the reciprocal is the quotient because the clamped count is a
  positive real number; a bias vector as a one-row table is the same table whether recast or repeated along a new axis;
  and each whole-array layer is, entry by entry, the layer function the blocks were shown to compute.
-/
import proofs.«120514_j71683004171208_1_alg».proof.Proof.KValue
import proofs.«120514_j71683004171208_1_alg».proof.Proof.RefRunHand
import proofs.«120514_j71683004171208_1_alg».proof.Proof.LibLayout

set_option maxRecDepth 16384

noncomputable section

namespace Cert.Sage.Bridge

open Idealize.ShloMosaic

/-! ## The shared host terms, under the two programs' names -/

theorem deg_eq (ei : (⟨Cert.KernelIdeal.S2x1600000, .i32⟩ : BufTy).Contents (Elt Ideal)) :
    Cert.ReferenceIdeal.Hand.deg (F := Ideal) ei = Cert.KernelIdeal.Hand.deg (F := Ideal) ei := rfl

theorem agg128_eq (ei : (⟨Cert.KernelIdeal.S2x1600000, .i32⟩ : BufTy).Contents (Elt Ideal)) (feat : FVec Ideal Cert.KernelIdeal.S100000x128 .f32) :
    Cert.ReferenceIdeal.Hand.agg128 (F := Ideal) ei feat = Cert.KernelIdeal.Hand.agg128 (F := Ideal) ei feat := rfl

theorem agg64_eq (ei : (⟨Cert.KernelIdeal.S2x1600000, .i32⟩ : BufTy).Contents (Elt Ideal)) (feat : FVec Ideal Cert.KernelIdeal.S100000x64 .f32) :
    Cert.ReferenceIdeal.Hand.agg64 (F := Ideal) ei feat = Cert.KernelIdeal.Hand.agg64 (F := Ideal) ei feat := rfl

/-! ## The hidden layer -/

/-- The reference's hidden table is the kernel program's. -/
theorem hid_eq (x : FVec Ideal Cert.KernelIdeal.S100000x128 .f32) (ei : (⟨Cert.KernelIdeal.S2x1600000, .i32⟩ : BufTy).Contents (Elt Ideal))
    (wl1 : FVec Ideal Cert.KernelIdeal.S128x64 .f32) (b1 : FVec Ideal Cert.KernelIdeal.S64 .f32) (wr1 : FVec Ideal Cert.KernelIdeal.S128x64 .f32) :
    Cert.ReferenceIdeal.Hand.hid (F := Ideal) x ei wl1 b1 wr1 = Cert.Sage.Kernel.hidK x ei wl1 b1 wr1 := by
  unfold Cert.ReferenceIdeal.Hand.hid
  refine (Cert.Sage.hostHidden_eq (N := 100000) (K := 128) (M := 64)
    Cert.ReferenceIdeal.dot_S100000x128_S128x64_S100000x64_1_0_0_1_n_n rfl _ _ _ _ _ _ _).trans ?_
  unfold Cert.Sage.Kernel.hidK
  rw [Cert.Sage.Kernel.mean128_eq, agg128_eq, deg_eq,
    Cert.Proof.Layout.reshape_row_eq_broadcastInDim (n := 64) b1 _ Cert.ReferenceIdeal.Facts₀.bcast_S64_S1x64_1]

/-! ## The result -/

/-- The reference's result table is the kernel program's. -/
theorem out_eq (x : FVec Ideal Cert.KernelIdeal.S100000x128 .f32) (ei : (⟨Cert.KernelIdeal.S2x1600000, .i32⟩ : BufTy).Contents (Elt Ideal))
    (wl1 : FVec Ideal Cert.KernelIdeal.S128x64 .f32) (b1 : FVec Ideal Cert.KernelIdeal.S64 .f32) (wr1 : FVec Ideal Cert.KernelIdeal.S128x64 .f32)
    (wl2 : FVec Ideal Cert.KernelIdeal.S64x40 .f32) (b2 : FVec Ideal Cert.KernelIdeal.S40 .f32) (wr2 : FVec Ideal Cert.KernelIdeal.S64x40 .f32) :
    Cert.ReferenceIdeal.Hand.out (F := Ideal) x ei wl1 b1 wr1 wl2 b2 wr2 = Cert.Sage.Kernel.outK x ei wl1 b1 wr1 wl2 b2 wr2 := by
  unfold Cert.ReferenceIdeal.Hand.out Cert.ReferenceIdeal.Hand.logSoftmax Cert.ReferenceIdeal.Hand.lsmShift Cert.ReferenceIdeal.Hand.lsmMax Cert.ReferenceIdeal.Hand.logits
  rw [hid_eq]
  refine (Cert.Sage.hostScores_eq (N := 100000) (K := 64) (M := 40)
    Cert.ReferenceIdeal.dot_S100000x64_S64x40_S100000x40_1_0_0_1_n_n rfl _ _ (by decide) _ _ _ _ _ _ _ _ _ _ _ rfl rfl).trans ?_
  unfold Cert.Sage.Kernel.outK
  rw [Cert.Sage.Kernel.mean64_eq, agg64_eq, deg_eq,
    Cert.Proof.Layout.reshape_row_eq_broadcastInDim (n := 40) b2 _ Cert.ReferenceIdeal.Facts₀.bcast_S40_S1x40_1]

end Cert.Sage.Bridge

end
-- ==== Proof.lean ====
/-
  The certificate. The word-level kernel program and its idealization run to the end without a fault and leave their
  arguments unchanged (the generated frames); the reference does too (its run, read back stretch by stretch); the
  idealization rewrote no operation, so there is nothing to preserve; and at the extended reals, from memories that
  agree on the arguments, the idealized kernel program and the reference end with the same result table: both are the
  row-wise log-softmax of the second layer of the hidden layer of the arguments, the neighbour mean taken as a product
  with a reciprocal on one side and as a quotient on the other.
-/
import proofs.«120514_j71683004171208_1_alg».proof.Defs
import proofs.«120514_j71683004171208_1_alg».proof.Proof.Gen.Kernel
import proofs.«120514_j71683004171208_1_alg».proof.Proof.Gen.Kernel.Skeleton
import proofs.«120514_j71683004171208_1_alg».proof.Proof.Gen.Kernel.Launch
import proofs.«120514_j71683004171208_1_alg».proof.Proof.Gen.Kernel.Points
import proofs.«120514_j71683004171208_1_alg».proof.Proof.Gen.Kernel.Frame
import proofs.«120514_j71683004171208_1_alg».proof.Proof.Gen.KernelIdeal
import proofs.«120514_j71683004171208_1_alg».proof.Proof.Gen.KernelIdeal.Skeleton
import proofs.«120514_j71683004171208_1_alg».proof.Proof.Gen.KernelIdeal.Launch
import proofs.«120514_j71683004171208_1_alg».proof.Proof.Gen.KernelIdeal.Points
import proofs.«120514_j71683004171208_1_alg».proof.Proof.Gen.KernelIdeal.Frame
import proofs.«120514_j71683004171208_1_alg».proof.Proof.Gen.ReferenceIdeal
import proofs.«120514_j71683004171208_1_alg».proof.Proof.Gen.Pre_finite_inputs
import proofs.«120514_j71683004171208_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- Both runs end with the result table at one function of the arguments, which agree. -/
theorem algebraic : Cert.algebraic_KernelIdeal_ReferenceIdeal := by
  intro m ρ m' ρ' _ hagree
  refine ⟨_, Cert.Sage.Kernel.run m ρ, ?_⟩
  refine (θ_run Cert.ReferenceIdeal.defs _ _).mono (fun _ h c => ⟨(h c).1.trans ?_, (h c).2⟩)
    (Cert.ReferenceIdeal.Hand.run (F := Ideal) m' ρ')
  obtain ⟨e0, e1, e2, e3, e4, e5, e6, e7⟩ := hagree c
  rw [e0, e1, e2, e3, e4, e5, e6, e7]
  exact Cert.Sage.Bridge.out_eq _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
